-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v5_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v5_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_v18) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x512x1024 : Shape := ⟨3, ![64, 512, 1024]⟩
abbrev S64x512x768 : Shape := ⟨3, ![64, 512, 768]⟩
abbrev S64x1024x1024 : Shape := ⟨3, ![64, 1024, 1024]⟩
abbrev S64x768x768 : Shape := ⟨3, ![64, 768, 768]⟩
abbrev S64x1x1792 : Shape := ⟨3, ![64, 1, 1792]⟩
abbrev S_ : Shape := ⟨0, ![]⟩

class Facts : Prop where
  bcast_S_S64x512x1024 : S_.BroadcastsInDim S64x512x1024 (![] : Fin 0 → Fin S64x512x1024.rank)
  reducesTo_S64x512x1024_S_d0_1_2 : S64x512x1024.ReducesTo [0, 1, 2] S_
  h_S_ : 0 < S_.numel
  bcast_S_S64x512x768 : S_.BroadcastsInDim S64x512x768 (![] : Fin 0 → Fin S64x512x768.rank)
  reducesTo_S64x512x768_S_d0_1_2 : S64x512x768.ReducesTo [0, 1, 2] S_
  bcast_S_S64x1024x1024 : S_.BroadcastsInDim S64x1024x1024 (![] : Fin 0 → Fin S64x1024x1024.rank)
  reducesTo_S64x1024x1024_S_d0_1_2 : S64x1024x1024.ReducesTo [0, 1, 2] S_
  bcast_S_S64x768x768 : S_.BroadcastsInDim S64x768x768 (![] : Fin 0 → Fin S64x768x768.rank)
  reducesTo_S64x768x768_S_d0_1_2 : S64x768x768.ReducesTo [0, 1, 2] S_
  bcast_S_S64x1x1792 : S_.BroadcastsInDim S64x1x1792 (![] : Fin 0 → Fin S64x1x1792.rank)
  reducesTo_S64x1x1792_S_d0_1_2 : S64x1x1792.ReducesTo [0, 1, 2] S_

variable [Facts]

def fn_part1 {F : FTy → Type} [FloatOps F] (main_arg4 : FVec F S64x1x1792 .f32) (main_v13 : IVec S_ 1) (main_v16 : IVec S64x768x768 1) : IVec S_ 1 :=
  let main_c_5 : IVec S_ 1 := constantI S_ 1 1#1
  let main_v17 : IVec S_ 1 := (fun x v => Host.reduce IntOp.andi x v reducesTo_S64x768x768_S_d0_1_2 h_S_) main_v16 main_c_5
  let main_v18 : IVec S_ 1 := andi main_v13 main_v17
  let main_v19 : FVec F S64x1x1792 .f32 := Host.absf main_arg4
  let main_cst_6 : FVec F S_ .f32 := constant S_ .f32 0x7F800000#32
  let main_v20 : FVec F S64x1x1792 .f32 := broadcastInDim S64x1x1792 ![] bcast_S_S64x1x1792 main_cst_6
  let main_v21 : IVec S64x1x1792 1 := cmpf .olt main_v19 main_v20
  let main_c_7 : IVec S_ 1 := constantI S_ 1 1#1
  let main_v22 : IVec S_ 1 := (fun x v => Host.reduce IntOp.andi x v reducesTo_S64x1x1792_S_d0_1_2 h_S_) main_v21 main_c_7
  let main_v23 : IVec S_ 1 := andi main_v18 main_v22
  main_v23

def fn {F : FTy → Type} [FloatOps F] (main_arg0 : FVec F S64x512x1024 .f32) (main_arg1 : FVec F S64x512x768 .f32) (main_arg2 : FVec F S64x1024x1024 .f32) (main_arg3 : FVec F S64x768x768 .f32) (main_arg4 : FVec F S64x1x1792 .f32) : IVec S_ 1 :=
  let main_v0 : FVec F S64x512x1024 .f32 := Host.absf main_arg0
  let main_cst : FVec F S_ .f32 := constant S_ .f32 0x7F800000#32
  let main_v1 : FVec F S64x512x1024 .f32 := broadcastInDim S64x512x1024 ![] bcast_S_S64x512x1024 main_cst
  let main_v2 : IVec S64x512x1024 1 := cmpf .olt main_v0 main_v1
  let main_c : IVec S_ 1 := constantI S_ 1 1#1
  let main_v3 : IVec S_ 1 := (fun x v => Host.reduce IntOp.andi x v reducesTo_S64x512x1024_S_d0_1_2 h_S_) main_v2 main_c
  let main_v4 : FVec F S64x512x768 .f32 := Host.absf main_arg1
  let main_cst_0 : FVec F S_ .f32 := constant S_ .f32 0x7F800000#32
  let main_v5 : FVec F S64x512x768 .f32 := broadcastInDim S64x512x768 ![] bcast_S_S64x512x768 main_cst_0
  let main_v6 : IVec S64x512x768 1 := cmpf .olt main_v4 main_v5
  let main_c_1 : IVec S_ 1 := constantI S_ 1 1#1
  let main_v7 : IVec S_ 1 := (fun x v => Host.reduce IntOp.andi x v reducesTo_S64x512x768_S_d0_1_2 h_S_) main_v6 main_c_1
  let main_v8 : IVec S_ 1 := andi main_v3 main_v7
  let main_v9 : FVec F S64x1024x1024 .f32 := Host.absf main_arg2
  let main_cst_2 : FVec F S_ .f32 := constant S_ .f32 0x7F800000#32
  let main_v10 : FVec F S64x1024x1024 .f32 := broadcastInDim S64x1024x1024 ![] bcast_S_S64x1024x1024 main_cst_2
  let main_v11 : IVec S64x1024x1024 1 := cmpf .olt main_v9 main_v10
  let main_c_3 : IVec S_ 1 := constantI S_ 1 1#1
  let main_v12 : IVec S_ 1 := (fun x v => Host.reduce IntOp.andi x v reducesTo_S64x1024x1024_S_d0_1_2 h_S_) main_v11 main_c_3
  let main_v13 : IVec S_ 1 := andi main_v8 main_v12
  let main_v14 : FVec F S64x768x768 .f32 := Host.absf main_arg3
  let main_cst_4 : FVec F S_ .f32 := constant S_ .f32 0x7F800000#32
  let main_v15 : FVec F S64x768x768 .f32 := broadcastInDim S64x768x768 ![] bcast_S_S64x768x768 main_cst_4
  let main_v16 : IVec S64x768x768 1 := cmpf .olt main_v14 main_v15
  fn_part1 (F := F) main_arg4 main_v13 main_v16
-- ==== Kernel.lean ====
abbrev S64x512x1024 : Shape := ⟨3, ![64, 512, 1024]⟩
abbrev S64x512x768 : Shape := ⟨3, ![64, 512, 768]⟩
abbrev S64x1024x1024 : Shape := ⟨3, ![64, 1024, 1024]⟩
abbrev S64x768x768 : Shape := ⟨3, ![64, 768, 768]⟩
abbrev S64x1x1792 : Shape := ⟨3, ![64, 1, 1792]⟩
abbrev S64x1x512 : Shape := ⟨3, ![64, 1, 512]⟩
abbrev S64x1x1024 : Shape := ⟨3, ![64, 1, 1024]⟩
abbrev S1x512x1024 : Shape := ⟨3, ![1, 512, 1024]⟩
abbrev S1x512x768 : Shape := ⟨3, ![1, 512, 768]⟩
abbrev S1x1024x1024 : Shape := ⟨3, ![1, 1024, 1024]⟩
abbrev S1x768x768 : Shape := ⟨3, ![1, 768, 768]⟩
abbrev S1x1x1792 : Shape := ⟨3, ![1, 1, 1792]⟩
abbrev S1x1x512 : Shape := ⟨3, ![1, 1, 512]⟩
abbrev S1x1x1024 : Shape := ⟨3, ![1, 1, 1024]⟩
abbrev S512x1024 : Shape := ⟨2, ![512, 1024]⟩
abbrev S512x768 : Shape := ⟨2, ![512, 768]⟩
abbrev S1024x1024 : Shape := ⟨2, ![1024, 1024]⟩
abbrev S768x768 : Shape := ⟨2, ![768, 768]⟩
abbrev S1x1792 : Shape := ⟨2, ![1, 1792]⟩
abbrev S1024x512 : Shape := ⟨2, ![1024, 512]⟩
abbrev S768x512 : Shape := ⟨2, ![768, 512]⟩
abbrev S1792x512 : Shape := ⟨2, ![1792, 512]⟩
abbrev S1x512 : Shape := ⟨2, ![1, 512]⟩
abbrev S1 : Shape := ⟨1, ![1]⟩
abbrev S1x1 : Shape := ⟨2, ![1, 1]⟩
abbrev S1x1024 : Shape := ⟨2, ![1, 1024]⟩

abbrev nBuf : Space → Nat
  | .hbm => 12
  | .vmem => 14
  | .smem => 0
  | _ => 0

abbrev bufTy : (tb : Table) → Fin (tcTables nBuf tb) → BufTy
  | .hbm, ⟨0, _⟩ => ⟨S64x512x1024, .f32⟩
  | .hbm, ⟨1, _⟩ => ⟨S64x512x768, .f32⟩
  | .hbm, ⟨2, _⟩ => ⟨S64x1024x1024, .f32⟩
  | .hbm, ⟨3, _⟩ => ⟨S64x768x768, .f32⟩
  | .hbm, ⟨4, _⟩ => ⟨S64x1x1792, .f32⟩
  | .hbm, ⟨5, _⟩ => ⟨S64x512x1024, .bf16⟩
  | .hbm, ⟨6, _⟩ => ⟨S64x512x768, .bf16⟩
  | .hbm, ⟨7, _⟩ => ⟨S64x1024x1024, .bf16⟩
  | .hbm, ⟨8, _⟩ => ⟨S64x768x768, .bf16⟩
  | .hbm, ⟨9, _⟩ => ⟨S64x1x1792, .bf16⟩
  | .hbm, ⟨10, _⟩ => ⟨S64x1x512, .f32⟩
  | .hbm, ⟨11, _⟩ => ⟨S64x1x1024, .f32⟩
  | .local _ .vmem, ⟨0, _⟩ => ⟨S1x512x1024, .bf16⟩
  | .local _ .vmem, ⟨1, _⟩ => ⟨S1x512x1024, .bf16⟩
  | .local _ .vmem, ⟨2, _⟩ => ⟨S1x512x768, .bf16⟩
  | .local _ .vmem, ⟨3, _⟩ => ⟨S1x512x768, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1x768x768, .bf16⟩
  | .local _ .vmem, ⟨7, _⟩ => ⟨S1x768x768, .bf16⟩
  | .local _ .vmem, ⟨8, _⟩ => ⟨S1x1x1792, .bf16⟩
  | .local _ .vmem, ⟨9, _⟩ => ⟨S1x1x1792, .bf16⟩
  | .local _ .vmem, ⟨10, _⟩ => ⟨S1x1x512, .f32⟩
  | .local _ .vmem, ⟨11, _⟩ => ⟨S1x1x512, .f32⟩
  | .local _ .vmem, ⟨12, _⟩ => ⟨S1x1x1024, .f32⟩
  | .local _ .vmem, ⟨13, _⟩ => ⟨S1x1x1024, .f32⟩
  | _, _ => ⟨S64x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x768x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1792 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  bitsLt_bf16_f32 : FTy.bits .bf16 < FTy.bits .f32
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  inb_S1x512x768_S1x512x768_0_0_0 : ∀ a, (![0, 0, 0] : Fin 3 → Nat) a + S1x512x768.size a ≤ S1x512x768.size a
  h_S1x512x768 : 0 < S1x512x768.numel
  shapeCasts_S1x512x768_S512x768 : S1x512x768.ShapeCasts S512x768
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  inb_S1x768x768_S1x768x768_0_0_0 : ∀ a, (![0, 0, 0] : Fin 3 → Nat) a + S1x768x768.size a ≤ S1x768x768.size a
  h_S1x768x768 : 0 < S1x768x768.numel
  shapeCasts_S1x768x768_S768x768 : S1x768x768.ShapeCasts S768x768
  inb_S1x1x1792_S1x1x1792_0_0_0 : ∀ a, (![0, 0, 0] : Fin 3 → Nat) a + S1x1x1792.size a ≤ S1x1x1792.size a
  h_S1x1x1792 : 0 < S1x1x1792.numel
  shapeCasts_S1x1x1792_S1x1792 : S1x1x1792.ShapeCasts S1x1792
  concatenates_S1024x512_S768x512_S1792x512_d0 : Shape.Concatenates [S1024x512, S768x512] S1792x512 0
  reduces_S1x512_S1 : S1x512.Reduces [1] S1
  shapeCasts_S1_S1x1 : S1.ShapeCasts S1x1
  broadcasts_S1x1_S1x512 : S1x1.Broadcasts S1x512
  inb_S1x1x512_S1x1x512_0_0_0 : ∀ a, (![0, 0, 0] : Fin 3 → Nat) a + S1x1x512.size a ≤ S1x1x512.size a
  h_S1x1x512 : 0 < S1x1x512.numel
  shapeCasts_S1x1x512_S1x512 : S1x1x512.ShapeCasts S1x512
  shapeCasts_S1x512_S1x1x512 : S1x512.ShapeCasts S1x1x512
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1x1024 : S1x1x1024.ShapeCasts S1x1024
  shapeCasts_S1x1024_S1x1x1024 : S1x1024.ShapeCasts S1x1x1024
  dot_S1024x1024_S512x1024_S1024x512_1_1_0_0_n_n_wf : DotDims.WF S1024x1024 S512x1024 S1024x512 [1] [1] [0] [0] [] []
  dot_S768x768_S512x768_S768x512_1_1_0_0_n_n_wf : DotDims.WF S768x768 S512x768 S768x512 [1] [1] [0] [0] [] []
  dot_S1x1792_S1792x512_S1x512_1_0_0_1_n_n_wf : DotDims.WF S1x1792 S1792x512 S1x512 [1] [0] [0] [1] [] []
  dot_S1x512_S512x1024_S1x1024_1_0_0_1_n_n_wf : DotDims.WF S1x512 S512x1024 S1x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1024.size a ≤ S64x512x1024.size a
  hwx0_0 : ∀ i : grid0.Coords, EltTy.bits .bf16 = 32 ∨ (Rect.block (s := S64x512x1024) S1x512x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x768.size a ≤ S64x512x768.size a
  hwx0_1 : ∀ i : grid0.Coords, EltTy.bits .bf16 = 32 ∨ (Rect.block (s := S64x512x768) S1x512x768.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x1024.size a ≤ S64x1024x1024.size a
  hwx0_2 : ∀ i : grid0.Coords, EltTy.bits .bf16 = 32 ∨ (Rect.block (s := S64x1024x1024) S1x1024x1024.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x768x768.size a ≤ S64x768x768.size a
  hwx0_3 : ∀ i : grid0.Coords, EltTy.bits .bf16 = 32 ∨ (Rect.block (s := S64x768x768) S1x768x768.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x1792.size a ≤ S64x1x1792.size a
  hwx0_4 : ∀ i : grid0.Coords, EltTy.bits .bf16 = 32 ∨ (Rect.block (s := S64x1x1792) S1x1x1792.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x512.size a ≤ S64x1x512.size a
  hwx0_5 : ∀ i : grid0.Coords, EltTy.bits .f32 = 32 ∨ (Rect.block (s := S64x1x512) S1x1x512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1x1024.size a ≤ S64x1x1024.size a
  hwx0_6 : ∀ i : grid0.Coords, EltTy.bits .f32 = 32 ∨ (Rect.block (s := S64x1x1024) S1x1x1024.size (cc0_transform_6 i) (hinb0_6 i)).WholeWords (EltTy.packing .f32)

variable [Facts₀]

def dot_S1024x1024_S512x1024_S1024x512_1_1_0_0_n_n : DotDims S1024x1024 S512x1024 S1024x512 where
  lhsContracting := [1]
  rhsContracting := [1]
  lhsNonContracting := [0]
  rhsNonContracting := [0]
  lhsBatch := []
  rhsBatch := []
  wf := dot_S1024x1024_S512x1024_S1024x512_1_1_0_0_n_n_wf
def dot_S768x768_S512x768_S768x512_1_1_0_0_n_n : DotDims S768x768 S512x768 S768x512 where
  lhsContracting := [1]
  rhsContracting := [1]
  lhsNonContracting := [0]
  rhsNonContracting := [0]
  lhsBatch := []
  rhsBatch := []
  wf := dot_S768x768_S512x768_S768x512_1_1_0_0_n_n_wf
def dot_S1x1792_S1792x512_S1x512_1_0_0_1_n_n : DotDims S1x1792 S1792x512 S1x512 where
  lhsContracting := [1]
  rhsContracting := [0]
  lhsNonContracting := [0]
  rhsNonContracting := [1]
  lhsBatch := []
  rhsBatch := []
  wf := dot_S1x1792_S1792x512_S1x512_1_0_0_1_n_n_wf
def dot_S1x512_S512x1024_S1x1024_1_0_0_1_n_n : DotDims S1x512 S512x1024 S1x1024 where
  lhsContracting := [1]
  rhsContracting := [0]
  lhsNonContracting := [0]
  rhsNonContracting := [1]
  lhsBatch := []
  rhsBatch := []
  wf := dot_S1x512_S512x1024_S1x1024_1_0_0_1_n_n_wf

abbrev win0_0 : Pipeline.Window sig grid0 :=
  Pipeline.Window.ofSpec (Memref.whole main_v0) S1x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x512x768.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1024x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x768x768.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x1x1792.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v5_0) S1x1x512.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v5_1) S1x1x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S64x512x1024 : Shape := ⟨3, ![64, 512, 1024]⟩
abbrev S64x512x768 : Shape := ⟨3, ![64, 512, 768]⟩
abbrev S64x1024x1024 : Shape := ⟨3, ![64, 1024, 1024]⟩
abbrev S64x768x768 : Shape := ⟨3, ![64, 768, 768]⟩
abbrev S64x1x1792 : Shape := ⟨3, ![64, 1, 1792]⟩
abbrev S64x1024x512 : Shape := ⟨3, ![64, 1024, 512]⟩
abbrev S64x768x512 : Shape := ⟨3, ![64, 768, 512]⟩
abbrev S64x1792x512 : Shape := ⟨3, ![64, 1792, 512]⟩
abbrev S64x1x512 : Shape := ⟨3, ![64, 1, 512]⟩
abbrev S_ : Shape := ⟨0, ![]⟩
abbrev S64x1 : Shape := ⟨2, ![64, 1]⟩
abbrev S64x1x1 : Shape := ⟨3, ![64, 1, 1]⟩
abbrev S64x1x1024 : Shape := ⟨3, ![64, 1, 1024]⟩

abbrev nBuf : Space → Nat
  | .hbm => 27
  | .vmem => 0
  | .smem => 0
  | _ => 0

abbrev bufTy : (tb : Table) → Fin (tcTables nBuf tb) → BufTy
  | .hbm, ⟨0, _⟩ => ⟨S64x512x1024, .f32⟩
  | .hbm, ⟨1, _⟩ => ⟨S64x512x768, .f32⟩
  | .hbm, ⟨2, _⟩ => ⟨S64x1024x1024, .f32⟩
  | .hbm, ⟨3, _⟩ => ⟨S64x768x768, .f32⟩
  | .hbm, ⟨4, _⟩ => ⟨S64x1x1792, .f32⟩
  | .hbm, ⟨5, _⟩ => ⟨S64x1024x512, .f32⟩
  | .hbm, ⟨6, _⟩ => ⟨S64x768x512, .f32⟩
  | .hbm, ⟨7, _⟩ => ⟨S64x1024x512, .f32⟩
  | .hbm, ⟨8, _⟩ => ⟨S64x768x512, .f32⟩
  | .hbm, ⟨9, _⟩ => ⟨S64x1792x512, .f32⟩
  | .hbm, ⟨10, _⟩ => ⟨S64x1792x512, .f32⟩
  | .hbm, ⟨11, _⟩ => ⟨S64x1x512, .f32⟩
  | .hbm, ⟨12, _⟩ => ⟨S_, .f32⟩
  | .hbm, ⟨13, _⟩ => ⟨S64x1, .f32⟩
  | .hbm, ⟨14, _⟩ => ⟨S_, .f32⟩
  | .hbm, ⟨15, _⟩ => ⟨S64x1, .f32⟩
  | .hbm, ⟨16, _⟩ => ⟨S64x1, .f32⟩
  | .hbm, ⟨17, _⟩ => ⟨S64x1x1, .f32⟩
  | .hbm, ⟨18, _⟩ => ⟨S64x1x512, .f32⟩
  | .hbm, ⟨19, _⟩ => ⟨S64x1x512, .f32⟩
  | .hbm, ⟨20, _⟩ => ⟨S64x1x512, .f32⟩
  | .hbm, ⟨21, _⟩ => ⟨S_, .f32⟩
  | .hbm, ⟨22, _⟩ => ⟨S64x1, .f32⟩
  | .hbm, ⟨23, _⟩ => ⟨S64x1x1, .f32⟩
  | .hbm, ⟨24, _⟩ => ⟨S64x1x512, .f32⟩
  | .hbm, ⟨25, _⟩ => ⟨S64x1x512, .f32⟩
  | .hbm, ⟨26, _⟩ => ⟨S64x1x1024, .f32⟩
  | _, _ => ⟨S64x512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]

class Facts₀ : Prop where
  transposes_S64x512x1024_S64x1024x512_0_2_1 : S64x512x1024.Transposes [0, 2, 1] S64x1024x512
  transposes_S64x512x768_S64x768x512_0_2_1 : S64x512x768.Transposes [0, 2, 1] S64x768x512
  concatenates_S64x1024x512_S64x768x512_S64x1792x512_d1 : Shape.Concatenates [S64x1024x512, S64x768x512] S64x1792x512 1
  reducesTo_S64x1x512_S64x1_d2 : S64x1x512.ReducesTo [2] S64x1
  h_S_ : 0 < S_.numel
  bcast_S_S64x1 : S_.BroadcastsInDim S64x1 (![] : Fin 0 → Fin S64x1.rank)
  bcast_S64x1_S64x1x1_0_1 : S64x1.BroadcastsInDim S64x1x1 (![0, 1] : Fin 2 → Fin S64x1x1.rank)
  bcast_S64x1x1_S64x1x512_0_1_2 : S64x1x1.BroadcastsInDim S64x1x512 (![0, 1, 2] : Fin 3 → Fin S64x1x512.rank)
  dot_S64x1024x1024_S64x1024x512_S64x1024x512_2_1_1_2_0_0_wf : DotDims.WF S64x1024x1024 S64x1024x512 S64x1024x512 [2] [1] [1] [2] [0] [0]
  dot_S64x768x768_S64x768x512_S64x768x512_2_1_1_2_0_0_wf : DotDims.WF S64x768x768 S64x768x512 S64x768x512 [2] [1] [1] [2] [0] [0]
  dot_S64x1x1792_S64x1792x512_S64x1x512_2_1_1_2_0_0_wf : DotDims.WF S64x1x1792 S64x1792x512 S64x1x512 [2] [1] [1] [2] [0] [0]
  dot_S64x1x512_S64x1024x512_S64x1x1024_2_2_1_1_0_0_wf : DotDims.WF S64x1x512 S64x1024x512 S64x1x1024 [2] [2] [1] [1] [0] [0]

variable [Facts₀]

def dot_S64x1024x1024_S64x1024x512_S64x1024x512_2_1_1_2_0_0 : DotDims S64x1024x1024 S64x1024x512 S64x1024x512 where
  lhsContracting := [2]
  rhsContracting := [1]
  lhsNonContracting := [1]
  rhsNonContracting := [2]
  lhsBatch := [0]
  rhsBatch := [0]
  wf := dot_S64x1024x1024_S64x1024x512_S64x1024x512_2_1_1_2_0_0_wf
def dot_S64x768x768_S64x768x512_S64x768x512_2_1_1_2_0_0 : DotDims S64x768x768 S64x768x512 S64x768x512 where
  lhsContracting := [2]
  rhsContracting := [1]
  lhsNonContracting := [1]
  rhsNonContracting := [2]
  lhsBatch := [0]
  rhsBatch := [0]
  wf := dot_S64x768x768_S64x768x512_S64x768x512_2_1_1_2_0_0_wf
def dot_S64x1x1792_S64x1792x512_S64x1x512_2_1_1_2_0_0 : DotDims S64x1x1792 S64x1792x512 S64x1x512 where
  lhsContracting := [2]
  rhsContracting := [1]
  lhsNonContracting := [1]
  rhsNonContracting := [2]
  lhsBatch := [0]
  rhsBatch := [0]
  wf := dot_S64x1x1792_S64x1792x512_S64x1x512_2_1_1_2_0_0_wf
def dot_S64x1x512_S64x1024x512_S64x1x1024_2_2_1_1_0_0 : DotDims S64x1x512 S64x1024x512 S64x1x1024 where
  lhsContracting := [2]
  rhsContracting := [2]
  lhsNonContracting := [1]
  rhsNonContracting := [1]
  lhsBatch := [0]
  rhsBatch := [0]
  wf := dot_S64x1x512_S64x1024x512_S64x1x1024_2_2_1_1_0_0_wf

class Facts : Prop extends Facts₀ where

variable [Facts]
-- ==== Proof.Spec.lean ====
/-
  Attention pooling of a text sequence against an aspect sequence, one batch element at a time, written as
  functions of coordinates on the extended reals.

  For one batch element, with `wt` the 1024×1024 text projection, `tx` the 512×1024 text rows, `wa` the 768×768
  aspect projection, `ax` the 512×768 aspect rows and `wc` the 1792 combining weights:

    proj c s  = (wt · txᵀ) c s           for c < 1024,   (wa · axᵀ) (c − 1024) s   otherwise
    score s   = ∑ c, wc c · tanh (proj c s)
    top       = max (−∞) (the maximum of the scores, folded from −∞)
    ex s      = exp (score s − top)
    weight s  = ex s / ∑ s', ex s'
    pooled h  = ∑ s, weight s · tx s h

  `weight` is the softmax of the scores over the sequence and `pooled` the text rows averaged by it. Both programs compute
  exactly these terms, sum by sum and in the same order of factors, so no law of the extended reals is needed to join them;
  the −∞ both start their maximum from is kept as its bit pattern and never evaluated.
-/
import Idealize.ShloMosaic.PureOps.Ideal
import Idealize.ShloMosaic.Lib.ValueIdx

noncomputable section

open scoped BigOperators

namespace AspectAttention

open Idealize.ShloMosaic Idealize.ShloMosaic.ValueIdx

/-- The value both programs start the row maximum from: the f32 pattern of −∞, read at the extended reals. -/
abbrev negInf : EReal := Ideal.ofBits .f32 0xFF800000#32

section OneBatch

variable (wt : Fin 1024 → Fin 1024 → EReal) (tx : Fin 512 → Fin 1024 → EReal)
  (wa : Fin 768 → Fin 768 → EReal) (ax : Fin 512 → Fin 768 → EReal) (wc : Fin 1792 → EReal)

/-- Row `c` of the two projections stacked, at sequence position `s`: the text projection's rows first, then the
    aspect projection's. Each is a product against the TRANSPOSED sequence: both factors are summed over their second
    coordinate. -/
def proj (c : Fin 1792) (s : Fin 512) : EReal :=
  if h : c.val < 1024 then ∑ k : Fin 1024, wt ⟨c.val, h⟩ k * tx s k
  else ∑ k : Fin 768, wa ⟨c.val - 1024, by have := c.isLt; omega⟩ k * ax s k

/-- The attention score of sequence position `s`. -/
def score (s : Fin 512) : EReal := ∑ c : Fin 1792, wc c * Ideal.tanh (proj wt tx wa ax c s)

/-- The largest score, as both programs take it: folded from −∞ over the sequence, then once more against −∞. -/
def top : EReal := max negInf ((Finset.univ : Finset (Fin 512)).fold max negInf (score wt tx wa ax wc))

/-- The shifted exponential of a score. -/
def ex (s : Fin 512) : EReal := Ideal.exp (score wt tx wa ax wc s - top wt tx wa ax wc)

/-- The softmax weight of sequence position `s`. -/
def weight (s : Fin 512) : EReal := Ideal.div (ex wt tx wa ax wc s) (∑ s' : Fin 512, ex wt tx wa ax wc s')

/-- The text rows averaged by the softmax weights, at feature `h`. -/
def pooled (h : Fin 1024) : EReal := ∑ s : Fin 512, weight wt tx wa ax wc s * tx s h

end OneBatch

section Arrays

variable (x0 : (⟨3, ![64, 512, 1024]⟩ : Shape).Idx → EReal) (x1 : (⟨3, ![64, 512, 768]⟩ : Shape).Idx → EReal)
  (x2 : (⟨3, ![64, 1024, 1024]⟩ : Shape).Idx → EReal) (x3 : (⟨3, ![64, 768, 768]⟩ : Shape).Idx → EReal)
  (x4 : (⟨3, ![64, 1, 1792]⟩ : Shape).Idx → EReal)

/-- The softmax weights of every batch element: entry `(b, 0, s)` is batch `b`'s weight of position `s`. -/
def weightArr : (⟨3, ![64, 1, 512]⟩ : Shape).Idx → EReal := fun i =>
  weight (fun h k => x2 (ix3 (i 0) h k)) (fun s k => x0 (ix3 (i 0) s k)) (fun e f => x3 (ix3 (i 0) e f))
    (fun s f => x1 (ix3 (i 0) s f)) (fun c => x4 (ix3 (i 0) (0 : Fin 1) c)) (i 2)

/-- The pooled text of every batch element: entry `(b, 0, h)` is batch `b`'s pooled feature `h`. -/
def pooledArr : (⟨3, ![64, 1, 1024]⟩ : Shape).Idx → EReal := fun i =>
  pooled (fun h k => x2 (ix3 (i 0) h k)) (fun s k => x0 (ix3 (i 0) s k)) (fun e f => x3 (ix3 (i 0) e f))
    (fun s f => x1 (ix3 (i 0) s f)) (fun c => x4 (ix3 (i 0) (0 : Fin 1) c)) (i 2)

end Arrays

end AspectAttention

end
-- ==== Proof.LibTransposedDot.lean ====
/-
  A matrix product whose right operand is contracted on its SECOND axis, read at coordinates.

  `DotDims.transposedRhs M K N` are the dimension numbers of an `M×K` by `N×K` product: both operands are contracted on
  their second axis, no batch axis: the left operand times the transpose of the right. At the ideal instance such a product,
  whether it is the kernel's `tpu.matmul` into a zero accumulator or the host's `dot_general`, is at the output index
  `(r, c)` the sum over `k : Fin K` of `A (r, k) * B (c, k)` on the extended reals.
-/
import Idealize.ShloMosaic.Lib.ValueIdx
import Idealize.ShloMosaic.PureOps.Ideal.Laws

noncomputable section

open scoped BigOperators

namespace Idealize.ShloMosaic.TransposedDot

open Idealize.ShloMosaic Idealize.ShloMosaic.ValueIdx

variable (M K N : Nat)

/-- The left operand's index at output index `j` and contraction position `k` is `(j 0, k)`. -/
theorem lhsIdx_eq (j : (⟨2, ![M, N]⟩ : Shape).Idx) (k : Fin K) :
    (DotDims.transposedRhs M K N).lhsIdx j ((contrEquiv1 (DotDims.transposedRhs M K N) K rfl rfl).symm k) = ix2 (j 0) k := by
  have hk := contrEquiv1_symm_val (DotDims.transposedRhs M K N) K rfl rfl k
  funext a
  apply Fin.ext
  match a with
  | ⟨0, _⟩ => rfl
  | ⟨1, _⟩ => exact ((DotDims.transposedRhs M K N).lhsIdx_val_of_single (cl := 1) rfl j _).trans hk

/-- The right operand's index at output index `j` and contraction position `k` is `(j 1, k)`. -/
theorem rhsIdx_eq (j : (⟨2, ![M, N]⟩ : Shape).Idx) (k : Fin K) :
    (DotDims.transposedRhs M K N).rhsIdx j ((contrEquiv1 (DotDims.transposedRhs M K N) K rfl rfl).symm k) = ix2 (j 1) k := by
  have hk := contrEquiv1_symm_val (DotDims.transposedRhs M K N) K rfl rfl k
  funext a
  apply Fin.ext
  match a with
  | ⟨0, _⟩ => rfl
  | ⟨1, _⟩ => exact ((DotDims.transposedRhs M K N).rhsIdx_val_of_single (cr := 1) rfl j _).trans hk

/-- The kernel's product into a zero accumulator, at an output index: the sum over the shared axis. -/
theorem matmul_zero_apply (prec : Option ContractPrecision) (A : FVec Ideal ⟨2, ![M, K]⟩ .f32) (B : FVec Ideal ⟨2, ![N, K]⟩ .f32)
    (j : (⟨2, ![M, N]⟩ : Shape).Idx) :
    FloatOps.matmul (DotDims.transposedRhs M K N) prec A B (constant ⟨2, ![M, N]⟩ .f32 0x00000000#32) j
      = ∑ k : Fin K, A (ix2 (j 0) k) * B (ix2 (j 1) k) := by
  rw [Ideal.matmul_constant_zero_apply, ← Equiv.sum_comp (contrEquiv1 (DotDims.transposedRhs M K N) K rfl rfl).symm]
  refine Finset.sum_congr rfl fun k _ => ?_
  rw [lhsIdx_eq, rhsIdx_eq]
  rfl

/-- The host's product, at an output index: the same sum. -/
theorem dotGeneral_apply (prec : Option ContractPrecision) (sched : HostSchedule) (A : FVec Ideal ⟨2, ![M, K]⟩ .f32)
    (B : FVec Ideal ⟨2, ![N, K]⟩ .f32) (j : (⟨2, ![M, N]⟩ : Shape).Idx) :
    FloatOps.dotGeneral (DotDims.transposedRhs M K N) prec sched A B j = ∑ k : Fin K, A (ix2 (j 0) k) * B (ix2 (j 1) k) := by
  rw [Ideal.dotGeneral_apply, ← Equiv.sum_comp (contrEquiv1 (DotDims.transposedRhs M K N) K rfl rfl).symm]
  refine Finset.sum_congr rfl fun k _ => ?_
  rw [lhsIdx_eq, rhsIdx_eq]
  rfl

end Idealize.ShloMosaic.TransposedDot

end
-- ==== Proof.LibTransposedDotAny.lean ====
/-
  A matrix product whose right operand is contracted on its SECOND axis, into a zero accumulator, read at coordinates at any
  two operand formats.

  At the ideal instance a change of float format is the identity, so the kernel's `tpu.matmul` of operands narrowed to
  another format (bf16, say) into a zero f32 accumulator is, at the output index `(r, c)`, the same sum over `k : Fin K` of
  `A (r, k) * B (c, k)` on the extended reals as the product of f32 operands. The dimension numbers are
  `DotDims.transposedRhs M K N`: an `M×K` by `N×K` product, both operands contracted on their second axis, no batch axis.
-/
import proofs.«114469_j82643760710180_1_alg».proof.Proof.LibTransposedDot

noncomputable section

open scoped BigOperators

namespace Idealize.ShloMosaic.TransposedDot

open Idealize.ShloMosaic Idealize.ShloMosaic.ValueIdx

variable (M K N : Nat)

/-- The kernel's product into a zero accumulator at any two operand formats, at an output index: the sum over the shared
    axis. -/
theorem matmul_zero_apply_any {φ₁ φ₂ : FTy} (prec : Option ContractPrecision) (A : FVec Ideal ⟨2, ![M, K]⟩ φ₁)
    (B : FVec Ideal ⟨2, ![N, K]⟩ φ₂) (j : (⟨2, ![M, N]⟩ : Shape).Idx) :
    FloatOps.matmul (DotDims.transposedRhs M K N) prec A B (constant ⟨2, ![M, N]⟩ .f32 0x00000000#32) j
      = ∑ k : Fin K, A (ix2 (j 0) k) * B (ix2 (j 1) k) := by
  rw [Ideal.matmul_constant_zero_apply, ← Equiv.sum_comp (contrEquiv1 (DotDims.transposedRhs M K N) K rfl rfl).symm]
  refine Finset.sum_congr rfl fun k _ => ?_
  rw [lhsIdx_eq, rhsIdx_eq]
  rfl

end Idealize.ShloMosaic.TransposedDot

end
-- ==== Proof.LibPlainDot.lean ====
/-
  A plain matrix product read at coordinates.

  `DotDims.plain M K N` are the dimension numbers of an `M×K` by `K×N` product: the left operand is contracted on its
  second axis, the right on its first, no batch axis. At the ideal instance such a product, whether it is the kernel's
  `tpu.matmul` into a zero accumulator or the host's `dot_general`, is at the output index `(r, c)` the sum over
  `k : Fin K` of `A (r, k) * B (k, c)` on the extended reals: the same sum in the same order on both sides, so the two
  agree wherever their operands do.
-/
import Idealize.ShloMosaic.Lib.ValueIdx
import Idealize.ShloMosaic.PureOps.Ideal.Laws

noncomputable section

open scoped BigOperators

namespace Idealize.ShloMosaic.PlainDot

open Idealize.ShloMosaic Idealize.ShloMosaic.ValueIdx

variable (M K N : Nat)

/-- The left operand's index at output index `j` and contraction position `k` is `(j 0, k)`. -/
theorem lhsIdx_eq (j : (⟨2, ![M, N]⟩ : Shape).Idx) (k : Fin K) :
    (DotDims.plain M K N).lhsIdx j ((contrEquiv1 (DotDims.plain M K N) K rfl rfl).symm k) = ix2 (j 0) k := by
  have hk := contrEquiv1_symm_val (DotDims.plain M K N) K rfl rfl k
  funext a
  apply Fin.ext
  match a with
  | ⟨0, _⟩ => rfl
  | ⟨1, _⟩ => exact ((DotDims.plain M K N).lhsIdx_val_of_single (cl := 1) rfl j _).trans hk

/-- The right operand's index at output index `j` and contraction position `k` is `(k, j 1)`. -/
theorem rhsIdx_eq (j : (⟨2, ![M, N]⟩ : Shape).Idx) (k : Fin K) :
    (DotDims.plain M K N).rhsIdx j ((contrEquiv1 (DotDims.plain M K N) K rfl rfl).symm k) = ix2 k (j 1) := by
  have hk := contrEquiv1_symm_val (DotDims.plain M K N) K rfl rfl k
  funext a
  apply Fin.ext
  match a with
  | ⟨0, _⟩ => exact ((DotDims.plain M K N).rhsIdx_val_of_single (cr := 0) rfl j _).trans hk
  | ⟨1, _⟩ => rfl

/-- The kernel's product into a zero accumulator, at an output index: the sum over the shared axis. -/
theorem matmul_zero_apply (prec : Option ContractPrecision) (A : FVec Ideal ⟨2, ![M, K]⟩ .f32) (B : FVec Ideal ⟨2, ![K, N]⟩ .f32)
    (j : (⟨2, ![M, N]⟩ : Shape).Idx) :
    FloatOps.matmul (DotDims.plain M K N) prec A B (constant ⟨2, ![M, N]⟩ .f32 0x00000000#32) j
      = ∑ k : Fin K, A (ix2 (j 0) k) * B (ix2 k (j 1)) := by
  rw [Ideal.matmul_constant_zero_apply, ← Equiv.sum_comp (contrEquiv1 (DotDims.plain M K N) K rfl rfl).symm]
  refine Finset.sum_congr rfl fun k _ => ?_
  rw [lhsIdx_eq, rhsIdx_eq]
  rfl

/-- The host's product, at an output index: the same sum. -/
theorem dotGeneral_apply (prec : Option ContractPrecision) (sched : HostSchedule) (A : FVec Ideal ⟨2, ![M, K]⟩ .f32)
    (B : FVec Ideal ⟨2, ![K, N]⟩ .f32) (j : (⟨2, ![M, N]⟩ : Shape).Idx) :
    FloatOps.dotGeneral (DotDims.plain M K N) prec sched A B j = ∑ k : Fin K, A (ix2 (j 0) k) * B (ix2 k (j 1)) := by
  rw [Ideal.dotGeneral_apply, ← Equiv.sum_comp (contrEquiv1 (DotDims.plain M K N) K rfl rfl).symm]
  refine Finset.sum_congr rfl fun k _ => ?_
  rw [lhsIdx_eq, rhsIdx_eq]
  rfl

end Idealize.ShloMosaic.PlainDot

end
-- ==== Proof.LibPlainDotAny.lean ====
/-
  A plain matrix product read at coordinates, at any two operand formats.

  At the ideal instance every float format is the extended reals, so an `M×K` by `K×N` product whose operands were
  first narrowed to another format (a kernel that feeds its matrix unit bf16) is still, at the output index `(r, c)`, the
  sum over `k : Fin K` of `A (r, k) * B (k, c)`: for the kernel's product into a zero accumulator and for the host's
  `dot_general` alike, over any dimension record equal to `DotDims.plain M K N`.
-/
import proofs.«114469_j82643760710180_1_alg».proof.Proof.LibPlainDot

noncomputable section

open scoped BigOperators

namespace Idealize.ShloMosaic.PlainDot

open Idealize.ShloMosaic Idealize.ShloMosaic.ValueIdx

variable (M K N : Nat)

/-- The kernel's product into a zero accumulator, at an output index, whatever the operands' formats. -/
theorem matmul_zero_apply_any {φ₁ φ₂ : FTy} (prec : Option ContractPrecision) (A : FVec Ideal ⟨2, ![M, K]⟩ φ₁)
    (B : FVec Ideal ⟨2, ![K, N]⟩ φ₂) (j : (⟨2, ![M, N]⟩ : Shape).Idx) :
    FloatOps.matmul (DotDims.plain M K N) prec A B (constant ⟨2, ![M, N]⟩ .f32 0x00000000#32) j
      = ∑ k : Fin K, A (ix2 (j 0) k) * B (ix2 k (j 1)) := by
  rw [Ideal.matmul_constant_zero_apply, ← Equiv.sum_comp (contrEquiv1 (DotDims.plain M K N) K rfl rfl).symm]
  refine Finset.sum_congr rfl fun k _ => ?_
  rw [lhsIdx_eq, rhsIdx_eq]
  rfl

/-- The host's product, at an output index, whatever the operands' formats. -/
theorem dotGeneral_apply_any {φ₁ φ₂ : FTy} (prec : Option ContractPrecision) (sched : HostSchedule)
    (A : FVec Ideal ⟨2, ![M, K]⟩ φ₁) (B : FVec Ideal ⟨2, ![K, N]⟩ φ₂) (j : (⟨2, ![M, N]⟩ : Shape).Idx) :
    FloatOps.dotGeneral (DotDims.plain M K N) prec sched A B j = ∑ k : Fin K, A (ix2 (j 0) k) * B (ix2 k (j 1)) := by
  rw [Ideal.dotGeneral_apply, ← Equiv.sum_comp (contrEquiv1 (DotDims.plain M K N) K rfl rfl).symm]
  refine Finset.sum_congr rfl fun k _ => ?_
  rw [lhsIdx_eq, rhsIdx_eq]
  rfl

end Idealize.ShloMosaic.PlainDot

end
-- ==== Proof.LibKeepdims.lean ====
/-
  Column layouts of a keepdims reduction, read at an index: a length-a vector recast as an [a, 1] column, and an [a, 1]
  column broadcast along the rows of an [a, b] array. (The row forms, [a] → [1, a] and [1, b] → [a, b], are the library's.)
-/
import Idealize.ShloMosaic.Lib.Pipeline.Value
import Idealize.ShloMosaic.Lib.ValueIdx

noncomputable section

namespace Idealize.ShloMosaic.Keepdims

open Idealize.ShloMosaic Idealize.ShloMosaic.ValueIdx

variable {α : Type}

/-- An `[a]` array cast to an `[a, 1]` column reads, at `(i, u)`, the operand at `i`, whatever the unit coordinate `u`:
    both positions are the i-th in row-major order. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.Keepdims

end
-- ==== Proof.KernelBlock.lean ====
/-
  One grid point of the attention kernel, read at coordinates on the extended reals.

  A grid point works on one batch element. From its five blocks (text rows, aspect rows, the two projections and the
  combining weights, each with a leading unit axis) the body forms the two projections against the TRANSPOSED sequences
  (products contracted on the second axis of both factors), stacks them, takes tanh, contracts the stack with the combining
  weights into one row of 512 scores, takes the softmax of that row (maximum folded from −∞, shifted exponentials, their
  sum, the quotient) and finally contracts the weights with the text rows. Narrowing to bf16 is the identity on the
  extended reals. Read at an index, the stored weights are `AspectAttention.weight` and the stored pooled row is
  `AspectAttention.pooled` of the blocks' rows.
-/
import proofs.«114469_j82643760710180_1_alg».proof.Proof.Gen.KernelIdeal.Skeleton
import proofs.«114469_j82643760710180_1_alg».proof.Proof.Spec
import proofs.«114469_j82643760710180_1_alg».proof.Proof.LibTransposedDotAny
import proofs.«114469_j82643760710180_1_alg».proof.Proof.LibPlainDotAny
import proofs.«114469_j82643760710180_1_alg».proof.Proof.LibKeepdims
import Idealize.ShloMosaic.Lib.ValueLayout
import Idealize.ShloMosaic.Lib.Pipeline.Value
import Idealize.ShloMosaic.PureOps.Ideal.Laws

noncomputable section

open scoped BigOperators

namespace Cert.KernelIdeal.BlockValue

open Cert.KernelIdeal Cert.KernelIdeal.Gen Idealize.ShloMosaic Idealize.ShloMosaic.ValueIdx AspectAttention

/-! ## The softmax of one row of scores -/

/-- The body's softmax chain on a one-row vector of scores: the row's maximum (folded from −∞, then taken against −∞ once
    more), the shifted exponentials, their sum, the quotient. -/
def softRow (v : FVec Ideal S1x512 .f32) : FVec Ideal S1x512 .f32 :=
  have top : FVec Ideal S1x512 .f32 := broadcastTo S1x512 (shapeCast S1x1 (maximumf (broadcast S1 (Scalar.ofBits .f32 0xFF800000#32))
    (multiReduction .maximumf [1] S1 v 0xFF800000#32 reduces_S1x512_S1 (.inl rfl) rfl)) shapeCasts_S1_S1x1) broadcasts_S1x1_S1x512
  have e : FVec Ideal S1x512 .f32 := exp (subf v top)
  divf e (broadcastTo S1x512 (shapeCast S1x1 (multiReduction .add [1] S1 e 0x00000000#32 reduces_S1x512_S1 (.inl rfl) rfl)
    shapeCasts_S1_S1x1) broadcasts_S1x1_S1x512)

/-- Putting the reduced coordinate `k` back into the one entry of the reduced row gives position `(0, k)`. -/
theorem lift_row (h : S1x512.Reduces [1] S1) (j : S1.Idx) (k : Fin 512) : h.lift j k = ix2 (0 : Fin 1) k := by
  funext c
  apply Fin.ext
  match c with
  | ⟨0, _⟩ =>
    have h0 := (h.lift j k ⟨0, by decide⟩).isLt
    change (h.lift j k ⟨0, by decide⟩).val < 1 at h0
    show (h.lift j k ⟨0, _⟩).val = 0
    omega
  | ⟨1, _⟩ => rfl

/-- The maximum of a one-row vector, folded from −∞ over the row's 512 positions: the reduction over the second axis of a
    [1, 512] array has one entry, and position `k` of the reduced axis is entry `(0, k)` of the row. -/
theorem rowMax_apply (v : FVec Ideal S1x512 .f32) (h : S1x512.Reduces [1] S1) (hφ : FKind.Formats .f32)
    (hacc : (0xFF800000#32 : BitVec 32) = 0xFF800000#32) (j : S1.Idx) :
    multiReduction .maximumf [1] S1 v 0xFF800000#32 h hφ hacc j
      = (Finset.univ : Finset (Fin 512)).fold max negInf fun k => v (ix2 (0 : Fin 1) k) := by
  refine (Ideal.multiReduction_maximumf_single v 0xFF800000#32 h hφ hacc j).trans ?_
  refine congrArg (fun f => Finset.fold max negInf f (Finset.univ : Finset (Fin 512))) ?_
  funext k
  exact congrArg v (lift_row h j k)

/-- The sum of a one-row vector: the same reading of the reduction with an add body, from the zero pattern. -/
theorem rowSum_apply (v : FVec Ideal S1x512 .f32) (h : S1x512.Reduces [1] S1) (hφ : FKind.Formats .f32)
    (hacc : (0x00000000#32 : BitVec 32) = 0x00000000#32) (j : S1.Idx) :
    multiReduction .add [1] S1 v 0x00000000#32 h hφ hacc j = ∑ k : Fin 512, v (ix2 (0 : Fin 1) k) := by
  refine (Ideal.multiReduction_add_single v 0x00000000#32 h hφ hacc j).trans ?_
  refine Finset.sum_congr rfl fun k _ => ?_
  exact congrArg v (lift_row h j k)

/-- The row's maximum as the body takes it, broadcast back along the row: the same value at every position. -/
theorem top_apply (v : FVec Ideal S1x512 .f32) (q : Fin 512) :
    broadcastTo S1x512 (shapeCast S1x1 (maximumf (broadcast S1 (Scalar.ofBits .f32 0xFF800000#32))
      (multiReduction .maximumf [1] S1 v 0xFF800000#32 reduces_S1x512_S1 (.inl rfl) rfl)) shapeCasts_S1_S1x1) broadcasts_S1x1_S1x512 (ix2 (0 : Fin 1) q)
      = max negInf ((Finset.univ : Finset (Fin 512)).fold max negInf fun k => v (ix2 (0 : Fin 1) k)) := by
  rw [Keepdims.broadcastTo_a1_ab_apply, Keepdims.shapeCast_a_a1_apply]
  show max negInf (multiReduction .maximumf [1] S1 v 0xFF800000#32 reduces_S1x512_S1 (.inl rfl) rfl (ix1 (0 : Fin 1))) = _
  exact congrArg (max negInf) (rowMax_apply v reduces_S1x512_S1 (.inl rfl) rfl (ix1 (0 : Fin 1)))

/-- The softmax chain at position `s`: the shifted exponential of the score there over the sum of all of them. -/
theorem softRow_apply (v : FVec Ideal S1x512 .f32) (s : Fin 512) :
    softRow v (ix2 (0 : Fin 1) s)
      = Ideal.div (Ideal.exp (v (ix2 (0 : Fin 1) s) - max negInf ((Finset.univ : Finset (Fin 512)).fold max negInf fun k => v (ix2 (0 : Fin 1) k))))
          (∑ q : Fin 512, Ideal.exp (v (ix2 (0 : Fin 1) q) - max negInf ((Finset.univ : Finset (Fin 512)).fold max negInf fun k => v (ix2 (0 : Fin 1) k)))) := by
  unfold softRow
  dsimp only
  rw [divf_apply, Keepdims.broadcastTo_a1_ab_apply, Keepdims.shapeCast_a_a1_apply]
  refine congrArg₂ Ideal.div ?_ ((rowSum_apply _ reduces_S1x512_S1 (.inl rfl) rfl (ix1 (0 : Fin 1))).trans
    (Finset.sum_congr rfl fun q _ => ?_))
  · show Ideal.exp (v (ix2 (0 : Fin 1) s) - _) = _
    rw [top_apply]
  · show Ideal.exp (v (ix2 (0 : Fin 1) q) - _) = _
    rw [top_apply]

/-! ## The scores -/

section Blocks

variable (P0 : Vec Ideal S1x512x1024 .bf16) (P1 : Vec Ideal S1x512x768 .bf16) (P2 : Vec Ideal S1x1024x1024 .bf16)
  (P3 : Vec Ideal S1x768x768 .bf16) (P4 : Vec Ideal S1x1x1792 .bf16)

/-- The two projections stacked: the text projection's 1024 rows over the aspect projection's 768, each a product with the
    transposed sequence. -/
def projV : FVec Ideal S1792x512 .f32 :=
  have tx : FVec Ideal S512x1024 .bf16 := shapeCast S512x1024 P0 shapeCasts_S1x512x1024_S512x1024
  have ax : FVec Ideal S512x768 .bf16 := shapeCast S512x768 P1 shapeCasts_S1x512x768_S512x768
  have wt : FVec Ideal S1024x1024 .bf16 := shapeCast S1024x1024 P2 shapeCasts_S1x1024x1024_S1024x1024
  have wa : FVec Ideal S768x768 .bf16 := shapeCast S768x768 P3 shapeCasts_S1x768x768_S768x768
  have pt : FVec Ideal S1024x512 .f32 := matmul dot_S1024x1024_S512x1024_S1024x512_1_1_0_0_n_n none wt tx (constant S1024x512 .f32 0x00000000#32)
  have pa : FVec Ideal S768x512 .f32 := matmul dot_S768x768_S512x768_S768x512_1_1_0_0_n_n none wa ax (constant S768x512 .f32 0x00000000#32)
  concatenate S1792x512 0 [⟨S1024x512, pt⟩, ⟨S768x512, pa⟩] concatenates_S1024x512_S768x512_S1792x512_d0

/-- The stack at row `c` and position `s` is the specification's `proj` of the blocks' rows. -/
theorem projV_apply (c : Fin 1792) (s : Fin 512) :
    projV P0 P1 P2 P3 (ix2 c s)
      = proj (fun h k => P2 (ix3 (0 : Fin 1) h k)) (fun s k => P0 (ix3 (0 : Fin 1) s k))
          (fun e f => P3 (ix3 (0 : Fin 1) e f)) (fun s f => P1 (ix3 (0 : Fin 1) s f)) c s := by
  unfold projV proj
  dsimp only
  by_cases h : c.val < 1024
  · rw [dif_pos h]
    refine (concatenate_pair_apply_left _ _ _ concatenates_S1024x512_S768x512_S1792x512_d0 (ix2 c s) rfl
      (ix2 (⟨c.val, h⟩ : Fin 1024) s) (fun b => by match b with | ⟨0, _⟩ => rfl | ⟨1, _⟩ => rfl)).trans ?_
    show FloatOps.matmul (DotDims.transposedRhs 1024 1024 512) none _ _ (constant _ .f32 0x00000000#32) (ix2 (⟨c.val, h⟩ : Fin 1024) s) = _
    rw [TransposedDot.matmul_zero_apply_any]
    refine Finset.sum_congr rfl fun k _ => ?_
    rw [shapeCast_1ab_ab_apply, shapeCast_1ab_ab_apply]
  · rw [dif_neg h]
    have hc : c.val - 1024 < 768 := by have := c.isLt; omega
    refine (concatenate_pair_apply_right _ _ _ concatenates_S1024x512_S768x512_S1792x512_d0 (ix2 c s) rfl rfl
      (ix2 (⟨c.val - 1024, hc⟩ : Fin 768) s) (fun b hb => by
        match b with
        | ⟨0, _⟩ => exact absurd rfl hb
        | ⟨1, _⟩ => rfl)
      (by show c.val - 1024 + 1024 = c.val; omega)).trans ?_
    show FloatOps.matmul (DotDims.transposedRhs 768 768 512) none _ _ (constant _ .f32 0x00000000#32) (ix2 (⟨c.val - 1024, hc⟩ : Fin 768) s) = _
    rw [TransposedDot.matmul_zero_apply_any]
    refine Finset.sum_congr rfl fun k _ => ?_
    rw [shapeCast_1ab_ab_apply, shapeCast_1ab_ab_apply]

/-- The row of scores: the combining weights contracted with the tanh of the stack. -/
def scoreV : FVec Ideal S1x512 .f32 :=
  have wc : FVec Ideal S1x1792 .bf16 := shapeCast S1x1792 P4 shapeCasts_S1x1x1792_S1x1792
  have th : FVec Ideal S1792x512 .bf16 := truncf .bf16 (tanh (projV P0 P1 P2 P3)) bitsLt_bf16_f32
  matmul dot_S1x1792_S1792x512_S1x512_1_0_0_1_n_n none wc th (constant S1x512 .f32 0x00000000#32)

/-- The row of scores at position `s` is the specification's `score`. -/
theorem scoreV_apply (s : Fin 512) :
    scoreV P0 P1 P2 P3 P4 (ix2 (0 : Fin 1) s)
      = score (fun h k => P2 (ix3 (0 : Fin 1) h k)) (fun s k => P0 (ix3 (0 : Fin 1) s k))
          (fun e f => P3 (ix3 (0 : Fin 1) e f)) (fun s f => P1 (ix3 (0 : Fin 1) s f)) (fun c => P4 (ix3 (0 : Fin 1) (0 : Fin 1) c)) s := by
  unfold scoreV score
  dsimp only
  show FloatOps.matmul (DotDims.plain 1 1792 512) none _ _ (constant _ .f32 0x00000000#32) (ix2 (0 : Fin 1) s) = _
  rw [PlainDot.matmul_zero_apply_any]
  refine Finset.sum_congr rfl fun c _ => ?_
  rw [shapeCast_1ab_ab_apply]
  show P4 (ix3 (0 : Fin 1) (0 : Fin 1) c) * Ideal.tanh (projV P0 P1 P2 P3 (ix2 c s)) = _
  rw [projV_apply]

/-! ## The two stored values -/

/-- The weights the body stores are the softmax chain of the row of scores. -/
theorem pay3_eq : k0_pay3 (F := Ideal) P0 P1 P2 P3 P4 = softRow (scoreV P0 P1 P2 P3 P4) := rfl

/-- The stored weights at position `s` are the specification's softmax weight of the blocks' rows. -/
theorem pay3_apply (s : Fin 512) :
    k0_pay3 (F := Ideal) P0 P1 P2 P3 P4 (ix2 (0 : Fin 1) s)
      = weight (fun h k => P2 (ix3 (0 : Fin 1) h k)) (fun s k => P0 (ix3 (0 : Fin 1) s k))
          (fun e f => P3 (ix3 (0 : Fin 1) e f)) (fun s f => P1 (ix3 (0 : Fin 1) s f)) (fun c => P4 (ix3 (0 : Fin 1) (0 : Fin 1) c)) s := by
  rw [pay3_eq, softRow_apply]
  simp only [scoreV_apply]
  rfl

/-- The stored pooled row at feature `h` is the specification's `pooled`: the weights contracted with the text rows. -/
theorem pay5_apply (h : Fin 1024) :
    k0_pay5 (F := Ideal) P0 P1 P2 P3 P4 (ix2 (0 : Fin 1) h)
      = pooled (fun h k => P2 (ix3 (0 : Fin 1) h k)) (fun s k => P0 (ix3 (0 : Fin 1) s k))
          (fun e f => P3 (ix3 (0 : Fin 1) e f)) (fun s f => P1 (ix3 (0 : Fin 1) s f)) (fun c => P4 (ix3 (0 : Fin 1) (0 : Fin 1) c)) h := by
  unfold k0_pay5 pooled
  show FloatOps.matmul (DotDims.plain 1 512 1024) none _ _ (constant _ .f32 0x00000000#32) (ix2 (0 : Fin 1) h) = _
  rw [PlainDot.matmul_zero_apply_any]
  refine Finset.sum_congr rfl fun s _ => ?_
  show k0_pay3 (F := Ideal) P0 P1 P2 P3 P4 (ix2 (0 : Fin 1) s) * (shapeCast S512x1024 P0 shapeCasts_S1x512x1024_S512x1024 : FVec Ideal S512x1024 .bf16) (ix2 s h) = _
  rw [pay3_apply, shapeCast_1ab_ab_apply]

end Blocks

end Cert.KernelIdeal.BlockValue

end
-- ==== Proof.KernelArray.lean ====
/-
  From grid points to whole arrays.

  The grid has one point per batch element. Point `t` fetches batch `t` of each of the five operands (the text rows, the
  aspect rows, the two projections, the combining weights), each narrowed to bf16 by the host before the call, which on the
  extended reals changes nothing; and it writes back batch `t` of the two results. So what point `t` writes back is block
  `t` of ONE function of the argument arrays: the softmax weights `AspectAttention.weightArr` for the first result and the
  pooled text `AspectAttention.pooledArr` for the second. The 64 blocks tile each result array (index `(b, 0, s)` lies in
  point `b`'s block), so after the run the two result arrays ARE those two functions of the arguments.
-/
import proofs.«114469_j82643760710180_1_alg».proof.Proof.Gen.KernelIdeal.Value
import proofs.«114469_j82643760710180_1_alg».proof.Proof.KernelBlock
import Idealize.ShloMosaic.Lib.Pipeline.Value
import Idealize.ShloMosaic.Lib.StableHlo.Run
import Idealize.ShloMosaic.Lib.Tactic

noncomputable section

open scoped BigOperators

open Idealize.ShloMosaic Idealize.ShloMosaic.TcCoe Idealize.SL.Sem
open Idealize.ShloMosaic.Pipeline (Dat)

namespace Cert.KernelIdeal.ArrayValue

open Cert.KernelIdeal Cert.KernelIdeal.Gen Cert.KernelIdeal.Value Idealize.ShloMosaic.ValueIdx AspectAttention

variable (m : (ℓ : Loc nD τ sig) → Buf (Elt Ideal) ℓ) (ρ : Dev nD → PrngReg)

/-- The zero offsets of a whole-block access. -/
theorem hz3 : (![0, 0, 0] : Fin 3 → Nat) = fun _ => 0 := funext fun a => by fin_cases a <;> rfl

/-- The batch element grid point `t` works on. -/
abbrev bat (t : Fin cfg0.N) : Fin 64 := ⟨t.val, Nat.lt_of_lt_of_eq t.isLt (show cfg0.N = 64 from N_0)⟩

/-- The printed index maps, decided over the 64 grid points: every window's block index is `(t, 0, 0)`. -/
theorem idx_facts : ∀ t : Fin cfg0.N,
    (win0_0.index t (0 : Fin 3) = t.val ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 0)
    ∧ (win0_2.index t (0 : Fin 3) = t.val ∧ win0_2.index t (1 : Fin 3) = 0 ∧ win0_2.index t (2 : Fin 3) = 0)
    ∧ (win0_3.index t (0 : Fin 3) = t.val ∧ win0_3.index t (1 : Fin 3) = 0 ∧ win0_3.index t (2 : Fin 3) = 0)
    ∧ (win0_4.index t (0 : Fin 3) = t.val ∧ win0_4.index t (1 : Fin 3) = 0 ∧ win0_4.index t (2 : Fin 3) = 0)
    ∧ (win0_5.index t (0 : Fin 3) = t.val ∧ win0_5.index t (1 : Fin 3) = 0 ∧ win0_5.index t (2 : Fin 3) = 0)
    ∧ (win0_6.index t (0 : Fin 3) = t.val ∧ win0_6.index t (1 : Fin 3) = 0 ∧ win0_6.index t (2 : Fin 3) = 0) :=
  (by decide +kernel : ∀ t : Fin grid0.N, _)

/-! ## The operands as the region finds them: the arguments, narrowed -/

theorem V_text (c : Dev nD) : @Eq (S64x512x1024.Idx → EReal) (V m c main_v0)
    (truncf (F := Ideal) .bf16 (m ((c : Thread nD τ).loc main_arg0) : FVec Ideal S64x512x1024 .f32) bitsLt_bf16_f32) := by
  dsimp only [Gen.V, Gen.hostOps0]; after_results
theorem V_aspect (c : Dev nD) : @Eq (S64x512x768.Idx → EReal) (V m c main_v1)
    (truncf (F := Ideal) .bf16 (m ((c : Thread nD τ).loc main_arg1) : FVec Ideal S64x512x768 .f32) bitsLt_bf16_f32) := by
  dsimp only [Gen.V, Gen.hostOps0]; after_results
theorem V_wtext (c : Dev nD) : @Eq (S64x1024x1024.Idx → EReal) (V m c main_v2)
    (truncf (F := Ideal) .bf16 (m ((c : Thread nD τ).loc main_arg2) : FVec Ideal S64x1024x1024 .f32) bitsLt_bf16_f32) := by
  dsimp only [Gen.V, Gen.hostOps0]; after_results
theorem V_waspect (c : Dev nD) : @Eq (S64x768x768.Idx → EReal) (V m c main_v3)
    (truncf (F := Ideal) .bf16 (m ((c : Thread nD τ).loc main_arg3) : FVec Ideal S64x768x768 .f32) bitsLt_bf16_f32) := by
  dsimp only [Gen.V, Gen.hostOps0]; after_results
theorem V_wcombine (c : Dev nD) : @Eq (S64x1x1792.Idx → EReal) (V m c main_v4)
    (truncf (F := Ideal) .bf16 (m ((c : Thread nD τ).loc main_arg4) : FVec Ideal S64x1x1792 .f32) bitsLt_bf16_f32) := by
  dsimp only [Gen.V, Gen.hostOps0]; after_results

/-! ## Each input block is a batch of its argument -/

/-- Point `t`'s block of text rows, at row `s` and feature `k`, is batch `t` of the text argument there. -/
theorem text_blk (c : Dev nD) (t : Fin cfg0.N) (s : Fin 512) (k : Fin 1024) :
    (iblk m c 0 t : Vec Ideal S1x512x1024 .bf16) (ix3 (0 : Fin 1) s k)
      = (m ((c : Thread nD τ).loc main_arg0) : S64x512x1024.Idx → EReal) (ix3 (bat t) s k) := by
  obtain ⟨⟨e0, e1, e2⟩, -⟩ := idx_facts t
  unfold iblk
  rw [View.read_apply]
  show V m c main_v0 _ = _
  rw [V_text]
  show (m ((c : Thread nD τ).loc main_arg0) : S64x512x1024.Idx → EReal) _ = _
  congr 1
  funext a
  apply Fin.ext
  match a with
  | ⟨0, _⟩ => show win0_0.index t (0 : Fin 3) * 1 + 1 * 0 = t.val; omega
  | ⟨1, _⟩ => show win0_0.index t (1 : Fin 3) * 512 + 1 * s.val = s.val; omega
  | ⟨2, _⟩ => show win0_0.index t (2 : Fin 3) * 1024 + 1 * k.val = k.val; omega

/-- Point `t`'s block of aspect rows is batch `t` of the aspect argument. -/
theorem aspect_blk (c : Dev nD) (t : Fin cfg0.N) (s : Fin 512) (f : Fin 768) :
    (iblk m c 1 t : Vec Ideal S1x512x768 .bf16) (ix3 (0 : Fin 1) s f)
      = (m ((c : Thread nD τ).loc main_arg1) : S64x512x768.Idx → EReal) (ix3 (bat t) s f) := by
  obtain ⟨-, ⟨e0, e1, e2⟩, -⟩ := idx_facts t
  unfold iblk
  rw [View.read_apply]
  show V m c main_v1 _ = _
  rw [V_aspect]
  show (m ((c : Thread nD τ).loc main_arg1) : S64x512x768.Idx → EReal) _ = _
  congr 1
  funext a
  apply Fin.ext
  match a with
  | ⟨0, _⟩ => show win0_1.index t (0 : Fin 3) * 1 + 1 * 0 = t.val; omega
  | ⟨1, _⟩ => show win0_1.index t (1 : Fin 3) * 512 + 1 * s.val = s.val; omega
  | ⟨2, _⟩ => show win0_1.index t (2 : Fin 3) * 768 + 1 * f.val = f.val; omega

/-- Point `t`'s block of the text projection is batch `t` of that argument. -/
theorem wtext_blk (c : Dev nD) (t : Fin cfg0.N) (h : Fin 1024) (k : Fin 1024) :
    (iblk m c 2 t : Vec Ideal S1x1024x1024 .bf16) (ix3 (0 : Fin 1) h k)
      = (m ((c : Thread nD τ).loc main_arg2) : S64x1024x1024.Idx → EReal) (ix3 (bat t) h k) := by
  obtain ⟨-, -, ⟨e0, e1, e2⟩, -⟩ := idx_facts t
  unfold iblk
  rw [View.read_apply]
  show V m c main_v2 _ = _
  rw [V_wtext]
  show (m ((c : Thread nD τ).loc main_arg2) : S64x1024x1024.Idx → EReal) _ = _
  congr 1
  funext a
  apply Fin.ext
  match a with
  | ⟨0, _⟩ => show win0_2.index t (0 : Fin 3) * 1 + 1 * 0 = t.val; omega
  | ⟨1, _⟩ => show win0_2.index t (1 : Fin 3) * 1024 + 1 * h.val = h.val; omega
  | ⟨2, _⟩ => show win0_2.index t (2 : Fin 3) * 1024 + 1 * k.val = k.val; omega

/-- Point `t`'s block of the aspect projection is batch `t` of that argument. -/
theorem waspect_blk (c : Dev nD) (t : Fin cfg0.N) (e : Fin 768) (f : Fin 768) :
    (iblk m c 3 t : Vec Ideal S1x768x768 .bf16) (ix3 (0 : Fin 1) e f)
      = (m ((c : Thread nD τ).loc main_arg3) : S64x768x768.Idx → EReal) (ix3 (bat t) e f) := by
  obtain ⟨-, -, -, ⟨e0, e1, e2⟩, -⟩ := idx_facts t
  unfold iblk
  rw [View.read_apply]
  show V m c main_v3 _ = _
  rw [V_waspect]
  show (m ((c : Thread nD τ).loc main_arg3) : S64x768x768.Idx → EReal) _ = _
  congr 1
  funext a
  apply Fin.ext
  match a with
  | ⟨0, _⟩ => show win0_3.index t (0 : Fin 3) * 1 + 1 * 0 = t.val; omega
  | ⟨1, _⟩ => show win0_3.index t (1 : Fin 3) * 768 + 1 * e.val = e.val; omega
  | ⟨2, _⟩ => show win0_3.index t (2 : Fin 3) * 768 + 1 * f.val = f.val; omega

/-- Point `t`'s block of combining weights is batch `t` of that argument. -/
theorem wcombine_blk (c : Dev nD) (t : Fin cfg0.N) (q : Fin 1792) :
    (iblk m c 4 t : Vec Ideal S1x1x1792 .bf16) (ix3 (0 : Fin 1) (0 : Fin 1) q)
      = (m ((c : Thread nD τ).loc main_arg4) : S64x1x1792.Idx → EReal) (ix3 (bat t) (0 : Fin 1) q) := by
  obtain ⟨-, -, -, -, ⟨e0, e1, e2⟩, -⟩ := idx_facts t
  unfold iblk
  rw [View.read_apply]
  show V m c main_v4 _ = _
  rw [V_wcombine]
  show (m ((c : Thread nD τ).loc main_arg4) : S64x1x1792.Idx → EReal) _ = _
  congr 1
  funext a
  apply Fin.ext
  match a with
  | ⟨0, _⟩ => show win0_4.index t (0 : Fin 3) * 1 + 1 * 0 = t.val; omega
  | ⟨1, _⟩ => show win0_4.index t (1 : Fin 3) * 1 + 1 * 0 = 0; omega
  | ⟨2, _⟩ => show win0_4.index t (2 : Fin 3) * 1792 + 1 * q.val = q.val; omega

/-! ## What the body leaves in each result's block, over blocks as plain vectors -/

section Blocks

variable (x0 : Vec Ideal S1x512x1024 .bf16) (x1 : Vec Ideal S1x512x768 .bf16) (x2 : Vec Ideal S1x1024x1024 .bf16)
  (x3 : Vec Ideal S1x768x768 .bf16) (x4 : Vec Ideal S1x1x1792 .bf16)

/-- The weights' block after the body, at position `s`: the softmax weight of the blocks' rows. -/
theorem out5_apply (u v : Fin 1) (s : Fin 512) :
    out0_5 x0 x1 x2 x3 x4 (ix3 u v s)
      = weight (fun h k => x2 (ix3 (0 : Fin 1) h k)) (fun s k => x0 (ix3 (0 : Fin 1) s k))
          (fun e f => x3 (ix3 (0 : Fin 1) e f)) (fun s f => x1 (ix3 (0 : Fin 1) s f)) (fun q => x4 (ix3 (0 : Fin 1) (0 : Fin 1) q)) s := by
  unfold out0_5
  refine (canon5_eq _ _ _ _ _ (ix3 u v s)).trans ?_
  simp only [View.ld_unit_zero (S := S1x512x1024) hz3, View.ld_unit_zero (S := S1x512x768) hz3,
    View.ld_unit_zero (S := S1x1024x1024) hz3, View.ld_unit_zero (S := S1x768x768) hz3, View.ld_unit_zero (S := S1x1x1792) hz3]
  show k0_pay3 (F := Ideal) x0 x1 x2 x3 x4 (ix5_0 (ix3 u v s)) = _
  have e : ix5_0 (ix3 u v s) = ix2 (0 : Fin 1) s :=
    funext fun a => Fin.ext (by match a with | ⟨0, _⟩ => rfl | ⟨1, _⟩ => rfl)
  rw [e]
  exact BlockValue.pay3_apply x0 x1 x2 x3 x4 s

/-- The pooled block after the body, at feature `h`: the pooled text of the blocks' rows. -/
theorem out6_apply (u v : Fin 1) (h : Fin 1024) :
    out0_6 x0 x1 x2 x3 x4 (ix3 u v h)
      = pooled (fun h k => x2 (ix3 (0 : Fin 1) h k)) (fun s k => x0 (ix3 (0 : Fin 1) s k))
          (fun e f => x3 (ix3 (0 : Fin 1) e f)) (fun s f => x1 (ix3 (0 : Fin 1) s f)) (fun q => x4 (ix3 (0 : Fin 1) (0 : Fin 1) q)) h := by
  unfold out0_6
  refine (canon6_eq _ _ _ _ _ (ix3 u v h)).trans ?_
  simp only [View.ld_unit_zero (S := S1x512x1024) hz3, View.ld_unit_zero (S := S1x512x768) hz3,
    View.ld_unit_zero (S := S1x1024x1024) hz3, View.ld_unit_zero (S := S1x768x768) hz3, View.ld_unit_zero (S := S1x1x1792) hz3]
  show k0_pay5 (F := Ideal) x0 x1 x2 x3 x4 (ix6_0 (ix3 u v h)) = _
  have e : ix6_0 (ix3 u v h) = ix2 (0 : Fin 1) h :=
    funext fun a => Fin.ext (by match a with | ⟨0, _⟩ => rfl | ⟨1, _⟩ => rfl)
  rw [e]
  exact BlockValue.pay5_apply x0 x1 x2 x3 x4 h

end Blocks

/-! ## The same, at any index of a result's block -/

section BlocksAt

variable (x0 : Vec Ideal S1x512x1024 .bf16) (x1 : Vec Ideal S1x512x768 .bf16) (x2 : Vec Ideal S1x1024x1024 .bf16)
  (x3 : Vec Ideal S1x768x768 .bf16) (x4 : Vec Ideal S1x1x1792 .bf16)

/-- The weights' block at any of its indices: only the last coordinate matters, the other two being unit axes. -/
theorem out5_at (y : S1x1x512.Idx) :
    out0_5 x0 x1 x2 x3 x4 y
      = weight (fun h k => x2 (ix3 (0 : Fin 1) h k)) (fun s k => x0 (ix3 (0 : Fin 1) s k))
          (fun e f => x3 (ix3 (0 : Fin 1) e f)) (fun s f => x1 (ix3 (0 : Fin 1) s f)) (fun q => x4 (ix3 (0 : Fin 1) (0 : Fin 1) q)) (y 2) :=
  (congrArg (out0_5 x0 x1 x2 x3 x4) (eq_ix3 y)).trans (out5_apply x0 x1 x2 x3 x4 (y 0) (y 1) (y 2))

/-- The pooled block at any of its indices. -/
theorem out6_at (y : S1x1x1024.Idx) :
    out0_6 x0 x1 x2 x3 x4 y
      = pooled (fun h k => x2 (ix3 (0 : Fin 1) h k)) (fun s k => x0 (ix3 (0 : Fin 1) s k))
          (fun e f => x3 (ix3 (0 : Fin 1) e f)) (fun s f => x1 (ix3 (0 : Fin 1) s f)) (fun q => x4 (ix3 (0 : Fin 1) (0 : Fin 1) q)) (y 2) :=
  (congrArg (out0_6 x0 x1 x2 x3 x4) (eq_ix3 y)).trans (out6_apply x0 x1 x2 x3 x4 (y 0) (y 1) (y 2))

end BlocksAt

/-! ## What each point writes back is its block of one function of the arguments -/

/-- The five operands' rows of batch `t`, read off point `t`'s blocks, are the arguments' rows of that batch: so any function
    of the rows takes the same value on both. -/
theorem rows_eq (c : Dev nD) (t : Fin cfg0.N) :
    ((fun h k => (iblk m c 2 t : Vec Ideal S1x1024x1024 .bf16) (ix3 (0 : Fin 1) h k))
        = fun h k => (m ((c : Thread nD τ).loc main_arg2) : S64x1024x1024.Idx → EReal) (ix3 (bat t) h k))
    ∧ ((fun s k => (iblk m c 0 t : Vec Ideal S1x512x1024 .bf16) (ix3 (0 : Fin 1) s k))
        = fun s k => (m ((c : Thread nD τ).loc main_arg0) : S64x512x1024.Idx → EReal) (ix3 (bat t) s k))
    ∧ ((fun e f => (iblk m c 3 t : Vec Ideal S1x768x768 .bf16) (ix3 (0 : Fin 1) e f))
        = fun e f => (m ((c : Thread nD τ).loc main_arg3) : S64x768x768.Idx → EReal) (ix3 (bat t) e f))
    ∧ ((fun s f => (iblk m c 1 t : Vec Ideal S1x512x768 .bf16) (ix3 (0 : Fin 1) s f))
        = fun s f => (m ((c : Thread nD τ).loc main_arg1) : S64x512x768.Idx → EReal) (ix3 (bat t) s f))
    ∧ ((fun q => (iblk m c 4 t : Vec Ideal S1x1x1792 .bf16) (ix3 (0 : Fin 1) (0 : Fin 1) q))
        = fun q => (m ((c : Thread nD τ).loc main_arg4) : S64x1x1792.Idx → EReal) (ix3 (bat t) (0 : Fin 1) q)) :=
  ⟨funext fun h => funext fun k => wtext_blk m c t h k, funext fun s => funext fun k => text_blk m c t s k,
   funext fun e => funext fun f => waspect_blk m c t e f, funext fun s => funext fun f => aspect_blk m c t s f,
   funext fun q => wcombine_blk m c t q⟩

/-- Point `t` writes back block `t` of the array of softmax weights. -/
theorem flushed5_eq (c : Dev nD) (t : Fin cfg0.N) :
    (dats m 0 c).flushed 5 t = ((cfg0.win 5).blk t).view.read (Elt Ideal)
      (weightArr (m ((c : Thread nD τ).loc main_arg0)) (m ((c : Thread nD τ).loc main_arg1)) (m ((c : Thread nD τ).loc main_arg2))
        (m ((c : Thread nD τ).loc main_arg3)) (m ((c : Thread nD τ).loc main_arg4))) := by
  obtain ⟨-, -, -, -, -, ⟨e0, e1, e2⟩, -⟩ := idx_facts t
  obtain ⟨r2, r0, r3, r1, r4⟩ := rows_eq m c t
  rw [flushed5]
  funext j
  have hj0 := (j 0).isLt
  change (j 0).val < 1 at hj0
  refine (out5_at (iblk m c 0 t) (iblk m c 1 t) (iblk m c 2 t) (iblk m c 3 t) (iblk m c 4 t) j).trans ?_
  rw [r2, r0, r3, r1, r4, View.read_apply]
  have hb : (((cfg0.win 5).blk t).view.emb j) 0 = bat t :=
    Fin.ext (by show win0_5.index t (0 : Fin 3) * 1 + 1 * (j 0).val = t.val; omega)
  have hs : (((cfg0.win 5).blk t).view.emb j) 2 = j 2 :=
    Fin.ext (by show win0_5.index t (2 : Fin 3) * 512 + 1 * (j 2).val = (j 2).val; omega)
  unfold weightArr
  rw [hb, hs]
  rfl

/-- Point `t` writes back block `t` of the array of pooled text. -/
theorem flushed6_eq (c : Dev nD) (t : Fin cfg0.N) :
    (dats m 0 c).flushed 6 t = ((cfg0.win 6).blk t).view.read (Elt Ideal)
      (pooledArr (m ((c : Thread nD τ).loc main_arg0)) (m ((c : Thread nD τ).loc main_arg1)) (m ((c : Thread nD τ).loc main_arg2))
        (m ((c : Thread nD τ).loc main_arg3)) (m ((c : Thread nD τ).loc main_arg4))) := by
  obtain ⟨-, -, -, -, -, -, ⟨e0, e1, e2⟩⟩ := idx_facts t
  obtain ⟨r2, r0, r3, r1, r4⟩ := rows_eq m c t
  rw [flushed6]
  funext j
  have hj0 := (j 0).isLt
  change (j 0).val < 1 at hj0
  refine (out6_at (iblk m c 0 t) (iblk m c 1 t) (iblk m c 2 t) (iblk m c 3 t) (iblk m c 4 t) j).trans ?_
  rw [r2, r0, r3, r1, r4, View.read_apply]
  have hb : (((cfg0.win 6).blk t).view.emb j) 0 = bat t :=
    Fin.ext (by show win0_6.index t (0 : Fin 3) * 1 + 1 * (j 0).val = t.val; omega)
  have hs : (((cfg0.win 6).blk t).view.emb j) 2 = j 2 :=
    Fin.ext (by show win0_6.index t (2 : Fin 3) * 1024 + 1 * (j 2).val = (j 2).val; omega)
  unfold pooledArr
  rw [hb, hs]
  rfl

/-! ## The blocks tile each result array -/

/-- An index of the weights' array is in point `t`'s block iff each coordinate is in the block's range on its axis. -/
theorem mem_blk5 (t : Fin cfg0.N) (i : S64x1x512.Idx) :
    i ∈ ((cfg0.win 5).blk t).view.set ↔ ∀ a : Fin 3, win0_5.index t a * S1x1x512.size a ≤ (i a).val ∧ (i a).val < win0_5.index t a * S1x1x512.size a + S1x1x512.size a := by
  show i ∈ ((View.whole main_v5_0).slice (win0_5.rect t)).set ↔ _
  rw [View.set_slice_whole, Rect.mem_set_unit]
  exact Iff.rfl

/-- The same for the pooled array. -/
theorem mem_blk6 (t : Fin cfg0.N) (i : S64x1x1024.Idx) :
    i ∈ ((cfg0.win 6).blk t).view.set ↔ ∀ a : Fin 3, win0_6.index t a * S1x1x1024.size a ≤ (i a).val ∧ (i a).val < win0_6.index t a * S1x1x1024.size a + S1x1x1024.size a := by
  show i ∈ ((View.whole main_v5_1).slice (win0_6.rect t)).set ↔ _
  rw [View.set_slice_whole, Rect.mem_set_unit]
  exact Iff.rfl

/-- Index `(b, 0, s)` of the weights' array lies in the block of point `b`, which writes back. -/
theorem cover5 (i : S64x1x512.Idx) : ∃ t : Fin cfg0.N, (cfg0.win 5).flush t = true ∧ i ∈ ((cfg0.win 5).blk t).view.set := by
  have h0 : (i 0).val < 64 := (i 0).isLt
  have h1 : (i 1).val < 1 := (i 1).isLt
  have h2 : (i 2).val < 512 := (i 2).isLt
  let t : Fin cfg0.N := ⟨(i 0).val, Nat.lt_of_lt_of_eq h0 (show (64 : Nat) = cfg0.N from N_0.symm)⟩
  obtain ⟨-, -, -, -, -, ⟨e0, e1, e2⟩, -⟩ := idx_facts t
  have et : t.val = (i 0).val := rfl
  refine ⟨t, flush0_5 t, ?_⟩
  rw [mem_blk5]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 1 ≤ (i 1).val ∧ (i 1).val < win0_5.index t (1 : Fin 3) * 1 + 1; omega
  | ⟨2, _⟩ => show win0_5.index t (2 : Fin 3) * 512 ≤ (i 2).val ∧ (i 2).val < win0_5.index t (2 : Fin 3) * 512 + 512; omega

/-- Index `(b, 0, h)` of the pooled array lies in the block of point `b`, which writes back. -/
theorem cover6 (i : S64x1x1024.Idx) : ∃ t : Fin cfg0.N, (cfg0.win 6).flush t = true ∧ i ∈ ((cfg0.win 6).blk t).view.set := by
  have h0 : (i 0).val < 64 := (i 0).isLt
  have h1 : (i 1).val < 1 := (i 1).isLt
  have h2 : (i 2).val < 1024 := (i 2).isLt
  let t : Fin cfg0.N := ⟨(i 0).val, Nat.lt_of_lt_of_eq h0 (show (64 : Nat) = cfg0.N from N_0.symm)⟩
  obtain ⟨-, -, -, -, -, -, ⟨e0, e1, e2⟩⟩ := idx_facts t
  have et : t.val = (i 0).val := rfl
  refine ⟨t, flush0_6 t, ?_⟩
  rw [mem_blk6]
  intro a
  match a with
  | ⟨0, _⟩ => show win0_6.index t (0 : Fin 3) * 1 ≤ (i 0).val ∧ (i 0).val < win0_6.index t (0 : Fin 3) * 1 + 1; omega
  | ⟨1, _⟩ => show win0_6.index t (1 : Fin 3) * 1 ≤ (i 1).val ∧ (i 1).val < win0_6.index t (1 : Fin 3) * 1 + 1; omega
  | ⟨2, _⟩ => show win0_6.index t (2 : Fin 3) * 1024 ≤ (i 2).val ∧ (i 2).val < win0_6.index t (2 : Fin 3) * 1024 + 1024; omega

/-! ## The two result arrays after the run -/

/-- After the run the first result array is the array of softmax weights of the arguments. -/
theorem final5 (c : Dev nD) : (dats m 0 c).arrAt 5 cfg0.N
    = weightArr (m ((c : Thread nD τ).loc main_arg0)) (m ((c : Thread nD τ).loc main_arg1)) (m ((c : Thread nD τ).loc main_arg2))
        (m ((c : Thread nD τ).loc main_arg3)) (m ((c : Thread nD τ).loc main_arg4)) :=
  (dats m 0 c).arrAt_eq_of_cover 5 _ (fun t _ => flushed5_eq m c t) cover5

/-- After the run the second result array is the array of pooled text of the arguments. -/
theorem final6 (c : Dev nD) : (dats m 0 c).arrAt 6 cfg0.N
    = pooledArr (m ((c : Thread nD τ).loc main_arg0)) (m ((c : Thread nD τ).loc main_arg1)) (m ((c : Thread nD τ).loc main_arg2))
        (m ((c : Thread nD τ).loc main_arg3)) (m ((c : Thread nD τ).loc main_arg4)) :=
  (dats m 0 c).arrAt_eq_of_cover 6 _ (fun t _ => flushed6_eq m c t) cover6

/-- The kernel's run, read: every weakly fair execution ends with the two results at the specification's two arrays of
    the arguments, and the arguments unchanged. -/
theorem run : θ_run defs (onTc (τ := τ) (main (F := Ideal))) ⟨m, fun _ => 0, ρ⟩ fun r => ∀ c : Dev nD,
      r.2.mem ((c : Thread nD τ).loc main_v5_0)
        = weightArr (m ((c : Thread nD τ).loc main_arg0)) (m ((c : Thread nD τ).loc main_arg1)) (m ((c : Thread nD τ).loc main_arg2))
            (m ((c : Thread nD τ).loc main_arg3)) (m ((c : Thread nD τ).loc main_arg4))
      ∧ r.2.mem ((c : Thread nD τ).loc main_v5_1)
        = pooledArr (m ((c : Thread nD τ).loc main_arg0)) (m ((c : Thread nD τ).loc main_arg1)) (m ((c : Thread nD τ).loc main_arg2))
            (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final5 m c), (h c).2.1.trans (final6 m c), (h c).2.2⟩)
    (run_blocks m ρ)

end Cert.KernelIdeal.ArrayValue

end
-- ==== Proof.ReferenceValue.lean ====
/-
  The reference program read stage by stage at the extended reals, one batch element `b` at a time, and joined to the
  specification's terms.

  With `wt` = batch `b` of the text projection, `tx` of the text rows, `wa` of the aspect projection, `ax` of the aspect
  rows and `wc` of the combining weights, the stages are, in order:

    the two transposes          (b, h, s) ↦ tx s h   and   (b, f, s) ↦ ax s f
    the two projections         (b, c, s) ↦ ∑ k, wt c k · tx s k   and   (b, e, s) ↦ ∑ k, wa e k · ax s k
    their stack along the rows  (b, c, s) ↦ proj c s: the first for c < 1024, the second at c − 1024 otherwise
    the score                   (b, 0, s) ↦ ∑ c, wc c · tanh (proj c s)
    the row maximum             (b, 0) ↦ the fold of max from −∞ over the scores, then max with −∞ once more: top
    the shifted exponential     (b, 0, s) ↦ exp (score s − top)
    their sum                   (b, 0) ↦ 0 + ∑ s', ex s' = ∑ s', ex s'
    the quotient                (b, 0, s) ↦ ex s / ∑ s', ex s': weight s
    the pooling                 (b, 0, h) ↦ ∑ s, weight s · tx s h: pooled h

  Each lemma below states one stage at explicit coordinates; each sum keeps its order of factors, and −∞ stays the bit
  pattern it is written as. The two theorems at the end split an index into its coordinates and read off the last
  two stages.
-/
import proofs.«114469_j82643760710180_1_alg».proof.Proof.Gen.ReferenceIdeal.Read
import proofs.«114469_j82643760710180_1_alg».proof.Proof.Spec
import Idealize.ShloMosaic.PureOps.Ideal.Laws
import Idealize.ShloMosaic.Lib.Pipeline.Value
import Idealize.ShloMosaic.Lib.ValueIdx
import Idealize.ShloMosaic.PureOps.Reduce

noncomputable section

open scoped BigOperators

namespace Cert.ReferenceIdeal.RefValue

open Cert.ReferenceIdeal Cert.ReferenceIdeal.Read Idealize.ShloMosaic Idealize.ShloMosaic.ValueIdx AspectAttention

section Stages

variable (x0 : (⟨S64x512x1024, .f32⟩ : BufTy).Contents (Elt Ideal)) (x1 : (⟨S64x512x768, .f32⟩ : BufTy).Contents (Elt Ideal))
  (x2 : (⟨S64x1024x1024, .f32⟩ : BufTy).Contents (Elt Ideal)) (x3 : (⟨S64x768x768, .f32⟩ : BufTy).Contents (Elt Ideal))
  (x4 : (⟨S64x1x1792, .f32⟩ : BufTy).Contents (Elt Ideal))

/-- The transposed text rows: entry (b, h, s) is the text entry (b, s, h). -/
theorem v0_at (b : Fin 64) (h : Fin 1024) (s : Fin 512) :
    val_main_v0 (F := Ideal) x0 (ix3 b h s) = x0 (ix3 b s h) := by
  rw [val_main_v0_apply]
  exact congrArg x0 (funext fun a => Fin.ext (by match a with | ⟨0, _⟩ => rfl | ⟨1, _⟩ => rfl | ⟨2, _⟩ => rfl))

/-- The transposed aspect rows: entry (b, f, s) is the aspect entry (b, s, f). -/
theorem v1_at (b : Fin 64) (f : Fin 768) (s : Fin 512) :
    val_main_v1 (F := Ideal) x1 (ix3 b f s) = x1 (ix3 b s f) := by
  rw [val_main_v1_apply]
  exact congrArg x1 (funext fun a => Fin.ext (by match a with | ⟨0, _⟩ => rfl | ⟨1, _⟩ => rfl | ⟨2, _⟩ => rfl))

/-- The text projection against the transposed text: row c, position s. -/
theorem v2_at (b : Fin 64) (c : Fin 1024) (s : Fin 512) :
    val_main_v2 (F := Ideal) x0 x2 (ix3 b c s) = ∑ k : Fin 1024, x2 (ix3 b c k) * x0 (ix3 b s k) := by
  rw [val_main_v2_apply]
  refine Finset.sum_congr rfl fun k _ => ?_
  have el : lidx_main_v2 (ix3 b c s) k = ix3 b c k :=
    funext fun a => Fin.ext (by match a with | ⟨0, _⟩ => rfl | ⟨1, _⟩ => rfl | ⟨2, _⟩ => rfl)
  have er : ridx_main_v2 (ix3 b c s) k = ix3 b k s :=
    funext fun a => Fin.ext (by match a with | ⟨0, _⟩ => rfl | ⟨1, _⟩ => rfl | ⟨2, _⟩ => rfl)
  rw [el, er, v0_at]

/-- The aspect projection against the transposed aspect: row e, position s. -/
theorem v3_at (b : Fin 64) (e : Fin 768) (s : Fin 512) :
    val_main_v3 (F := Ideal) x1 x3 (ix3 b e s) = ∑ k : Fin 768, x3 (ix3 b e k) * x1 (ix3 b s k) := by
  rw [val_main_v3_apply]
  refine Finset.sum_congr rfl fun k _ => ?_
  have el : lidx_main_v3 (ix3 b e s) k = ix3 b e k :=
    funext fun a => Fin.ext (by match a with | ⟨0, _⟩ => rfl | ⟨1, _⟩ => rfl | ⟨2, _⟩ => rfl)
  have er : ridx_main_v3 (ix3 b e s) k = ix3 b k s :=
    funext fun a => Fin.ext (by match a with | ⟨0, _⟩ => rfl | ⟨1, _⟩ => rfl | ⟨2, _⟩ => rfl)
  rw [el, er, v1_at]

/-- The two projections stacked along the rows are the specification's `proj`. -/
theorem v4_at (b : Fin 64) (c : Fin 1792) (s : Fin 512) :
    val_main_v4 (F := Ideal) x0 x1 x2 x3 (ix3 b c s)
      = proj (fun h k => x2 (ix3 b h k)) (fun s k => x0 (ix3 b s k)) (fun e f => x3 (ix3 b e f))
          (fun s f => x1 (ix3 b s f)) c s := by
  unfold proj
  split
  · next hc =>
    unfold val_main_v4
    rw [concatenate_pair_apply_left (s₁ := S64x1024x512) (s₂ := S64x768x512) (1 : Fin 3) _ _ _ (ix3 b c s) rfl (ix3 b (⟨c.val, hc⟩ : Fin 1024) s)
      (fun a => by match a with | ⟨0, _⟩ => rfl | ⟨1, _⟩ => rfl | ⟨2, _⟩ => rfl)]
    exact v2_at x0 x2 b ⟨c.val, hc⟩ s
  · next hc =>
    unfold val_main_v4
    rw [concatenate_pair_apply_right (s₁ := S64x1024x512) (s₂ := S64x768x512) (1 : Fin 3) _ _ _ (ix3 b c s) rfl rfl
      (ix3 b (⟨c.val - 1024, by have := c.isLt; omega⟩ : Fin 768) s)
      (fun a => by
        match a with
        | ⟨0, _⟩ => exact fun _ => rfl
        | ⟨1, _⟩ => exact fun hne => absurd rfl hne
        | ⟨2, _⟩ => exact fun _ => rfl)
      (by show c.val - 1024 + 1024 = c.val; omega)]
    exact v3_at x1 x3 b ⟨c.val - 1024, by have := c.isLt; omega⟩ s

end Stages

section Scores

variable (x0 : (⟨S64x512x1024, .f32⟩ : BufTy).Contents (Elt Ideal)) (x1 : (⟨S64x512x768, .f32⟩ : BufTy).Contents (Elt Ideal))
  (x2 : (⟨S64x1024x1024, .f32⟩ : BufTy).Contents (Elt Ideal)) (x3 : (⟨S64x768x768, .f32⟩ : BufTy).Contents (Elt Ideal))
  (x4 : (⟨S64x1x1792, .f32⟩ : BufTy).Contents (Elt Ideal))

/-- The combining weights against the hyperbolic tangent of the stacked projections: the score of position s. -/
theorem v6_at (b : Fin 64) (s : Fin 512) :
    val_main_v6 (F := Ideal) x0 x1 x2 x3 x4 (ix3 b (0 : Fin 1) s)
      = score (fun h k => x2 (ix3 b h k)) (fun s k => x0 (ix3 b s k)) (fun e f => x3 (ix3 b e f))
          (fun s f => x1 (ix3 b s f)) (fun c => x4 (ix3 b (0 : Fin 1) c)) s := by
  rw [val_main_v6_apply]
  unfold score
  refine Finset.sum_congr rfl fun k _ => ?_
  have el : lidx_main_v6 (ix3 b (0 : Fin 1) s) k = ix3 b (0 : Fin 1) k :=
    funext fun a => Fin.ext (by match a with | ⟨0, _⟩ => rfl | ⟨1, _⟩ => rfl | ⟨2, _⟩ => rfl)
  have er : ridx_main_v6 (ix3 b (0 : Fin 1) s) k = ix3 b k s :=
    funext fun a => Fin.ext (by match a with | ⟨0, _⟩ => rfl | ⟨1, _⟩ => rfl | ⟨2, _⟩ => rfl)
  rw [el, er, val_main_v5_apply, Ideal.hostUnary_tanh_def, v4_at]

/-- The reduced index (b, 0) with position k put back on the last axis is (b, 0, k). -/
theorem lift_at (h : S64x1x512.Reduces [2] S64x1) (b : Fin 64) (k : Fin (S64x1x512.size 2)) :
    h.lift (ix2 b (0 : Fin 1)) k = ix3 b (0 : Fin 1) (⟨k.val, k.isLt⟩ : Fin 512) := by
  funext c; apply Fin.ext
  match c with
  | ⟨0, _⟩ => rfl
  | ⟨1, _⟩ => rfl
  | ⟨2, _⟩ => rfl

/-- The maximum over the sequence, folded from −∞, of the scores. -/
theorem v7_at (b : Fin 64) :
    val_main_v7 (F := Ideal) x0 x1 x2 x3 x4 (ix2 b (0 : Fin 1))
      = (Finset.univ : Finset (Fin 512)).fold max negInf
          (score (fun h k => x2 (ix3 b h k)) (fun s k => x0 (ix3 b s k)) (fun e f => x3 (ix3 b e f))
            (fun s f => x1 (ix3 b s f)) (fun c => x4 (ix3 b (0 : Fin 1) c))) := by
  have h : S64x1x512.Reduces [2] S64x1 := by decide
  unfold val_main_v7
  rw [Host.reduce_eq_fold_single FloatOps.maximumf _ _ _ h _]
  have hf : (val_main_v6 (F := Ideal) x0 x1 x2 x3 x4 ∘ h.lift (ix2 b (0 : Fin 1)))
      = score (fun h k => x2 (ix3 b h k)) (fun s k => x0 (ix3 b s k)) (fun e f => x3 (ix3 b e f))
          (fun s f => x1 (ix3 b s f)) (fun c => x4 (ix3 b (0 : Fin 1) c)) := by
    funext k
    show val_main_v6 (F := Ideal) x0 x1 x2 x3 x4 (h.lift (ix2 b (0 : Fin 1)) k) = _
    rw [lift_at h b k]
    exact v6_at x0 x1 x2 x3 x4 b ⟨k.val, k.isLt⟩
  rw [hf]
  rfl

/-- The row maximum taken once more against −∞: the specification's `top`. -/
theorem v9_at (b : Fin 64) :
    val_main_v9 (F := Ideal) x0 x1 x2 x3 x4 (ix2 b (0 : Fin 1))
      = top (fun h k => x2 (ix3 b h k)) (fun s k => x0 (ix3 b s k)) (fun e f => x3 (ix3 b e f))
          (fun s f => x1 (ix3 b s f)) (fun c => x4 (ix3 b (0 : Fin 1) c)) := by
  rw [val_main_v9_apply, val_main_v8_apply, val_main_cst_0_apply, v7_at]
  rfl

/-- The row maximum spread back over the sequence. -/
theorem v11_at (b : Fin 64) (s : Fin 512) :
    val_main_v11 (F := Ideal) x0 x1 x2 x3 x4 (ix3 b (0 : Fin 1) s)
      = top (fun h k => x2 (ix3 b h k)) (fun s k => x0 (ix3 b s k)) (fun e f => x3 (ix3 b e f))
          (fun s f => x1 (ix3 b s f)) (fun c => x4 (ix3 b (0 : Fin 1) c)) := by
  rw [val_main_v11_apply, val_main_v10_apply]
  have e : idx_main_v10 (idx_main_v11 (ix3 b (0 : Fin 1) s)) = ix2 b (0 : Fin 1) :=
    funext fun a => Fin.ext (by match a with | ⟨0, _⟩ => rfl | ⟨1, _⟩ => rfl)
  rw [e, v9_at]

/-- The exponential of the score less the row maximum. -/
theorem v13_at (b : Fin 64) (s : Fin 512) :
    val_main_v13 (F := Ideal) x0 x1 x2 x3 x4 (ix3 b (0 : Fin 1) s)
      = ex (fun h k => x2 (ix3 b h k)) (fun s k => x0 (ix3 b s k)) (fun e f => x3 (ix3 b e f))
          (fun s f => x1 (ix3 b s f)) (fun c => x4 (ix3 b (0 : Fin 1) c)) s := by
  rw [val_main_v13_apply, Ideal.hostUnary_exp_def, val_main_v12_apply, Ideal.subf_def, v6_at, v11_at]
  rfl

/-- The sum over the sequence of the shifted exponentials, from the zero the reference starts it at. -/
theorem v14_at (b : Fin 64) :
    val_main_v14 (F := Ideal) x0 x1 x2 x3 x4 (ix2 b (0 : Fin 1))
      = ∑ s' : Fin 512, ex (fun h k => x2 (ix3 b h k)) (fun s k => x0 (ix3 b s k)) (fun e f => x3 (ix3 b e f))
          (fun s f => x1 (ix3 b s f)) (fun c => x4 (ix3 b (0 : Fin 1) c)) s' := by
  rw [val_main_v14_apply, val_main_cst_1_apply, Ideal.ofBits_def, Ideal.ofBits_zero_f32, zero_add]
  refine Finset.sum_congr rfl fun k _ => ?_
  have e : idx_main_v14 (ix2 b (0 : Fin 1)) k = ix3 b (0 : Fin 1) k :=
    funext fun a => Fin.ext (by match a with | ⟨0, _⟩ => rfl | ⟨1, _⟩ => rfl | ⟨2, _⟩ => rfl)
  rw [e, v13_at]

/-- That sum spread back over the sequence. -/
theorem v16_at (b : Fin 64) (s : Fin 512) :
    val_main_v16 (F := Ideal) x0 x1 x2 x3 x4 (ix3 b (0 : Fin 1) s)
      = ∑ s' : Fin 512, ex (fun h k => x2 (ix3 b h k)) (fun s k => x0 (ix3 b s k)) (fun e f => x3 (ix3 b e f))
          (fun s f => x1 (ix3 b s f)) (fun c => x4 (ix3 b (0 : Fin 1) c)) s' := by
  rw [val_main_v16_apply, val_main_v15_apply]
  have e : idx_main_v15 (idx_main_v16 (ix3 b (0 : Fin 1) s)) = ix2 b (0 : Fin 1) :=
    funext fun a => Fin.ext (by match a with | ⟨0, _⟩ => rfl | ⟨1, _⟩ => rfl)
  rw [e, v14_at]

/-- The shifted exponential over the sum of them: the softmax weight of position s. -/
theorem v17_at (b : Fin 64) (s : Fin 512) :
    val_main_v17 (F := Ideal) x0 x1 x2 x3 x4 (ix3 b (0 : Fin 1) s)
      = weight (fun h k => x2 (ix3 b h k)) (fun s k => x0 (ix3 b s k)) (fun e f => x3 (ix3 b e f))
          (fun s f => x1 (ix3 b s f)) (fun c => x4 (ix3 b (0 : Fin 1) c)) s := by
  rw [val_main_v17_apply, Ideal.hostDivf_def, v13_at, v16_at]
  rfl

/-- The softmax weights against the transposed text rows: the pooled feature h. -/
theorem v18_at (b : Fin 64) (h : Fin 1024) :
    val_main_v18 (F := Ideal) x0 x1 x2 x3 x4 (ix3 b (0 : Fin 1) h)
      = pooled (fun h k => x2 (ix3 b h k)) (fun s k => x0 (ix3 b s k)) (fun e f => x3 (ix3 b e f))
          (fun s f => x1 (ix3 b s f)) (fun c => x4 (ix3 b (0 : Fin 1) c)) h := by
  rw [val_main_v18_apply]
  unfold pooled
  refine Finset.sum_congr rfl fun k _ => ?_
  have el : lidx_main_v18 (ix3 b (0 : Fin 1) h) k = ix3 b (0 : Fin 1) k :=
    funext fun a => Fin.ext (by match a with | ⟨0, _⟩ => rfl | ⟨1, _⟩ => rfl | ⟨2, _⟩ => rfl)
  have er : ridx_main_v18 (ix3 b (0 : Fin 1) h) k = ix3 b h k :=
    funext fun a => Fin.ext (by match a with | ⟨0, _⟩ => rfl | ⟨1, _⟩ => rfl | ⟨2, _⟩ => rfl)
  rw [el, er, v17_at, v0_at]

end Scores

/-- The reference's first result is the array of softmax weights. -/
theorem weight_eq (x0 : (⟨S64x512x1024, .f32⟩ : BufTy).Contents (Elt Ideal)) (x1 : (⟨S64x512x768, .f32⟩ : BufTy).Contents (Elt Ideal)) (x2 : (⟨S64x1024x1024, .f32⟩ : BufTy).Contents (Elt Ideal)) (x3 : (⟨S64x768x768, .f32⟩ : BufTy).Contents (Elt Ideal)) (x4 : (⟨S64x1x1792, .f32⟩ : BufTy).Contents (Elt Ideal)) :
    val_main_v17 (F := Ideal) x0 x1 x2 x3 x4 = AspectAttention.weightArr x0 x1 x2 x3 x4 := by
  funext i
  obtain ⟨b, z, s, rfl⟩ : ∃ (b : Fin 64) (z : Fin 1) (s : Fin 512), i = ix3 b z s := ⟨i 0, i 1, i 2, eq_ix3 i⟩
  obtain rfl : z = 0 := Subsingleton.elim _ _
  exact v17_at x0 x1 x2 x3 x4 b s

/-- The reference's second result is the array of pooled text features. -/
theorem pooled_eq (x0 : (⟨S64x512x1024, .f32⟩ : BufTy).Contents (Elt Ideal)) (x1 : (⟨S64x512x768, .f32⟩ : BufTy).Contents (Elt Ideal)) (x2 : (⟨S64x1024x1024, .f32⟩ : BufTy).Contents (Elt Ideal)) (x3 : (⟨S64x768x768, .f32⟩ : BufTy).Contents (Elt Ideal)) (x4 : (⟨S64x1x1792, .f32⟩ : BufTy).Contents (Elt Ideal)) :
    val_main_v18 (F := Ideal) x0 x1 x2 x3 x4 = AspectAttention.pooledArr x0 x1 x2 x3 x4 := by
  funext i
  obtain ⟨b, z, h, rfl⟩ : ∃ (b : Fin 64) (z : Fin 1) (h : Fin 1024), i = ix3 b z h := ⟨i 0, i 1, i 2, eq_ix3 i⟩
  obtain rfl : z = 0 := Subsingleton.elim _ _
  exact v18_at x0 x1 x2 x3 x4 b h

end Cert.ReferenceIdeal.RefValue

end
-- ==== Proof.lean ====
/-
  An attention pooling kernel against its jnp reference, equal over the extended reals.

  For each of 64 batch elements the programs take 512 text rows of 1024 features, 512 aspect rows of 768 features, a
  1024×1024 and a 768×768 projection and 1792 combining weights. Both project the two sequences (each projection times
  the TRANSPOSED sequence), stack the two results into 1792 rows, take tanh, contract with the combining weights into 512
  scores, take the softmax of the scores over the sequence, and average the text rows by it. They return the softmax
  weights and the pooled text.

  The kernel does this one batch element per grid point, on operands narrowed to bf16 and with every product accumulated
  in f32; the reference does it on whole arrays with batched products. On the extended reals narrowing is the identity, a
  product into a zero accumulator is a plain sum, and the two programs spell the softmax the same way (the maximum folded
  from −∞ and taken against −∞ once more, the shifted exponentials, their sum from zero, the quotient). So both compute,
  sum by sum and factor by factor, the two arrays `AspectAttention.weightArr` and `AspectAttention.pooledArr` of the
  arguments (Proof/Spec.lean): the kernel by Proof/KernelBlock.lean (one grid point) and Proof/KernelArray.lean (the 64
  blocks tile each result), the reference by Proof/ReferenceValue.lean (stage by stage). Beyond `0 + x = x` and the
  commutativity and associativity of `max`, by which each program's row maximum is one fold over the row, no law of the
  extended reals is used; in particular nothing needs the inputs finite, and the precondition is never opened.

  The ideal pass rewrote nothing in the kernel, so its idealization is its own text read at the extended reals and the
  preservation claim is trivial.
-/
import proofs.«114469_j82643760710180_1_alg».proof.Defs
import proofs.«114469_j82643760710180_1_alg».proof.Proof.Gen.Kernel
import proofs.«114469_j82643760710180_1_alg».proof.Proof.Gen.Kernel.Skeleton
import proofs.«114469_j82643760710180_1_alg».proof.Proof.Gen.Kernel.Launch
import proofs.«114469_j82643760710180_1_alg».proof.Proof.Gen.Kernel.Points
import proofs.«114469_j82643760710180_1_alg».proof.Proof.Gen.Kernel.Frame
import proofs.«114469_j82643760710180_1_alg».proof.Proof.Gen.KernelIdeal
import proofs.«114469_j82643760710180_1_alg».proof.Proof.Gen.KernelIdeal.Skeleton
import proofs.«114469_j82643760710180_1_alg».proof.Proof.Gen.KernelIdeal.Launch
import proofs.«114469_j82643760710180_1_alg».proof.Proof.Gen.KernelIdeal.Points
import proofs.«114469_j82643760710180_1_alg».proof.Proof.Gen.KernelIdeal.Frame
import proofs.«114469_j82643760710180_1_alg».proof.Proof.Gen.ReferenceIdeal
import proofs.«114469_j82643760710180_1_alg».proof.Proof.Gen.Pre_finite_inputs
import proofs.«114469_j82643760710180_1_alg».proof.Proof.Gen.KernelIdeal.Value
import proofs.«114469_j82643760710180_1_alg».proof.Proof.Gen.ReferenceIdeal.Run
import proofs.«114469_j82643760710180_1_alg».proof.Proof.Gen.ReferenceIdeal.Read
import proofs.«114469_j82643760710180_1_alg».proof.Proof.KernelArray
import proofs.«114469_j82643760710180_1_alg».proof.Proof.ReferenceValue
import Idealize.ShloMosaic.Adequacy
import Idealize.ShloMosaic.Init

noncomputable section

namespace Cert.Proof

open Idealize.ShloMosaic Idealize.ShloMosaic.TcCoe Idealize.SL.Sem

/-- The kernel as printed runs and leaves its arguments as they were. -/
theorem frame_kernel : Cert.frame_Kernel := fun m ρ _ => Cert.Kernel.Gen.frame m ρ

/-- So does the kernel read at the extended reals. -/
theorem frame_kernelIdeal : Cert.frame_KernelIdeal := fun m ρ _ => Cert.KernelIdeal.Gen.frame m ρ

/-- The reference runs and leaves its arguments as they were: its run with the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- Nothing of the kernel was rewritten to read it at the extended reals. -/
theorem preserves : Cert.preserves_Kernel_KernelIdeal := trivial

/-- From memories agreeing on the five arguments both programs end with the softmax weights and the pooled text of those
    arguments: the kernel's two result arrays by its run read block by block, the reference's by its run read stage by stage. -/
theorem algebraic : Cert.algebraic_KernelIdeal_ReferenceIdeal := by
  intro m ρ m' ρ' _ hagree
  refine ⟨_, _, Cert.KernelIdeal.ArrayValue.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v17_eq, Cert.ReferenceIdeal.RefValue.weight_eq,
      (hagree c).1, (hagree c).2.1, (hagree c).2.2.1, (hagree c).2.2.2.1, (hagree c).2.2.2.2]
  · rw [Cert.ReferenceIdeal.Read.val_main_v18_eq, Cert.ReferenceIdeal.RefValue.pooled_eq,
      (hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
